-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep_prob" .f32 0x3F86BCA2#32 ((16777216 / 15938355 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x16x4096 : S_.BroadcastsInDim S4x16x4096 (![] : Fin 0 → Fin S4x16x4096.rank)
  reducesTo_S4x16x4096_S_d0_1_2 : S4x16x4096.ReducesTo [0, 1, 2] S_
  bcast_S_S4x4096x16 : S_.BroadcastsInDim S4x4096x16 (![] : Fin 0 → Fin S4x4096x16.rank)
  reducesTo_S4x4096x16_S_d0_1_2 : S4x4096x16.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S4x4096x16 .f32) (main_arg5 : FVec F S8x2048x4096 .f32) (main_arg6 : IVec S8 32) (main_v13 : IVec S_ 1) (main_v16 : IVec S4x16x4096 1) : IVec S_ 1 :=
  let main_c_5 : IVec S_ 1 := constantI S_ 1 1#1
  let main_v17 : IVec S_ 1 := (fun x v => Host.reduce IntOp.andi x v reducesTo_S4x16x4096_S_d0_1_2 h_S_) main_v16 main_c_5
  let main_v18 : IVec S_ 1 := andi main_v13 main_v17
  let main_v19 : FVec F S4x4096x16 .f32 := Host.absf main_arg4
  let main_cst_6 : FVec F S_ .f32 := constant S_ .f32 0x7F800000#32
  let main_v20 : FVec F S4x4096x16 .f32 := broadcastInDim S4x4096x16 ![] bcast_S_S4x4096x16 main_cst_6
  let main_v21 : IVec S4x4096x16 1 := cmpf .olt main_v19 main_v20
  let main_c_7 : IVec S_ 1 := constantI S_ 1 1#1
  let main_v22 : IVec S_ 1 := (fun x v => Host.reduce IntOp.andi x v reducesTo_S4x4096x16_S_d0_1_2 h_S_) main_v21 main_c_7
  let main_v23 : IVec S_ 1 := andi main_v18 main_v22
  let main_v24 : FVec F S8x2048x4096 .f32 := Host.absf main_arg5
  let main_cst_8 : FVec F S_ .f32 := constant S_ .f32 0x7F800000#32
  let main_v25 : FVec F S8x2048x4096 .f32 := broadcastInDim S8x2048x4096 ![] bcast_S_S8x2048x4096 main_cst_8
  let main_v26 : IVec S8x2048x4096 1 := cmpf .olt main_v24 main_v25
  let main_c_9 : IVec S_ 1 := constantI S_ 1 1#1
  let main_v27 : IVec S_ 1 := (fun x v => Host.reduce IntOp.andi x v reducesTo_S8x2048x4096_S_d0_1_2 h_S_) main_v26 main_c_9
  let main_v28 : IVec S_ 1 := andi main_v23 main_v27
  let main_c_10 : IVec S_ 32 := constantI S_ 32 0#32
  let main_v29 : IVec S8 32 := broadcastInDim S8 ![] bcast_S_S8 main_c_10
  let main_v30 : IVec S8 1 := cmpi .sge main_arg6 main_v29
  let main_c_11 : IVec S_ 1 := constantI S_ 1 1#1
  let main_v31 : IVec S_ 1 := (fun x v => Host.reduce IntOp.andi x v reducesTo_S8_S_d0 h_S_) main_v30 main_c_11
  let main_v32 : IVec S_ 1 := andi main_v28 main_v31
  main_v32

def fn {F : FTy → Type} [FloatOps F] (main_arg0 : FVec F S8x2048x4096 .f32) (main_arg1 : FVec F S4096x4096 .f32) (main_arg2 : FVec F S4096 .f32) (main_arg3 : FVec F S4x16x4096 .f32) (main_arg4 : FVec F S4x4096x16 .f32) (main_arg5 : FVec F S8x2048x4096 .f32) (main_arg6 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x16x4096 .f32 := Host.absf main_arg3
  let main_cst_4 : FVec F S_ .f32 := constant S_ .f32 0x7F800000#32
  let main_v15 : FVec F S4x16x4096 .f32 := broadcastInDim S4x16x4096 ![] bcast_S_S4x16x4096 main_cst_4
  let main_v16 : IVec S4x16x4096 1 := cmpf .olt main_v14 main_v15
  fn_part1 (F := F) main_arg4 main_arg5 main_arg6 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S8 : Shape := ⟨1, ![8]⟩
abbrev S_ : Shape := ⟨0, ![]⟩
abbrev S1x512x512 : Shape := ⟨3, ![1, 512, 512]⟩
abbrev S512x2048 : Shape := ⟨2, ![512, 2048]⟩
abbrev S1x16x512 : Shape := ⟨3, ![1, 16, 512]⟩
abbrev S1 : Shape := ⟨1, ![1]⟩
abbrev S1x2048x16 : Shape := ⟨3, ![1, 2048, 16]⟩
abbrev S2048 : Shape := ⟨1, ![2048]⟩
abbrev S1x512x2048 : Shape := ⟨3, ![1, 512, 2048]⟩
abbrev S512x16 : Shape := ⟨2, ![512, 16]⟩
abbrev S512x512 : Shape := ⟨2, ![512, 512]⟩
abbrev S16x512 : Shape := ⟨2, ![16, 512]⟩
abbrev S2048x16 : Shape := ⟨2, ![2048, 16]⟩
abbrev S1x2048 : Shape := ⟨2, ![1, 2048]⟩

abbrev nBuf : Space → Nat
  | .hbm => 19
  | .vmem => 16
  | .smem => 1
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S8x2048x4096, .f32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S4096x4096, .f32⟩
  | .hbm, ⟨15, _⟩ => ⟨S4096x4096, .bf16⟩
  | .hbm, ⟨16, _⟩ => ⟨S4x4096x16, .bf16⟩
  | .hbm, ⟨17, _⟩ => ⟨S4x16x4096, .bf16⟩
  | .hbm, ⟨18, _⟩ => ⟨S8x2048x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x2048, .bf16⟩
  | .local _ .vmem, ⟨5, _⟩ => ⟨S512x2048, .bf16⟩
  | .local _ .vmem, ⟨6, _⟩ => ⟨S1x16x512, .bf16⟩
  | .local _ .vmem, ⟨7, _⟩ => ⟨S1x16x512, .bf16⟩
  | .local _ .vmem, ⟨8, _⟩ => ⟨S1x2048x16, .bf16⟩
  | .local _ .vmem, ⟨9, _⟩ => ⟨S1x2048x16, .bf16⟩
  | .local _ .vmem, ⟨10, _⟩ => ⟨S2048, .f32⟩
  | .local _ .vmem, ⟨11, _⟩ => ⟨S2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .f32⟩
  | .local _ .vmem, ⟨15, _⟩ => ⟨S512x16, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![8, 4, 2, 8], ![false, false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg3 : BitVec 32 := BitVec.ofNat 32 (i 3).val
  let c7_i32 : BitVec 32 := 7#32
  let v34 : BitVec 1 := Scalar.cmpi .eq arg3 c7_i32
  let v35 : BitVec 32 := Scalar.extui v34
  let c0_i32_23 : BitVec 32 := 0#32
  let v36 : BitVec 1 := Scalar.cmpi .ne v35 c0_i32_23
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg3.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg2.toNat, c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, true]

abbrev stage0_4 : Fin 2 → Memref sig .tc .vmem S1x2048x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

class Facts₀ : Prop where
  bcast_S_S8 : S_.BroadcastsInDim S8 (![] : Fin 0 → Fin S8.rank)
  transposes_S4096x4096_S4096x4096_1_0 : S4096x4096.Transposes [1, 0] S4096x4096
  bitsLt_bf16_f32 : FTy.bits .bf16 < FTy.bits .f32
  numel1_S1 : S1.numel = 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  natLt_1_32 : 1 < 32
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S512x2048_S512x2048_1_0_0_1_n_n_wf : DotDims.WF S512x512 S512x2048 S512x2048 [1] [0] [0] [1] [] []
  dot_S512x512_S16x512_S512x16_1_1_0_0_n_n_wf : DotDims.WF S512x512 S16x512 S512x16 [1] [1] [0] [0] [] []
  dot_S512x16_S2048x16_S512x2048_1_1_0_0_n_n_wf : DotDims.WF S512x16 S2048x16 S512x2048 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x4096.size a
  hwx0_0 : ∀ i : grid0.Coords, EltTy.bits .f32 = 32 ∨ (Rect.block (s := S8x2048x4096) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x4096.size a
  hwx0_1 : ∀ i : grid0.Coords, EltTy.bits .f32 = 32 ∨ (Rect.block (s := S8x2048x4096) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .bf16 = 32 ∨ (Rect.block (s := S4096x4096) S512x2048.size (cc0_transform_2 i) (hinb0_2 i)).WholeWords (EltTy.packing .bf16)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S4096.size a
  hwx0_5 : ∀ i : grid0.Coords, EltTy.bits .f32 = 32 ∨ (Rect.block (s := S4096) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x2048x4096.size a
  hwx0_6 : ∀ i : grid0.Coords, EltTy.bits .f32 = 32 ∨ (Rect.block (s := S8x2048x4096) S1x512x2048.size (cc0_transform_6 i) (hinb0_6 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S16x512_S512x16_1_1_0_0_n_n : DotDims S512x512 S16x512 S512x16 where
  lhsContracting := [1]
  rhsContracting := [1]
  lhsNonContracting := [0]
  rhsNonContracting := [0]
  lhsBatch := []
  rhsBatch := []
  wf := dot_S512x512_S16x512_S512x16_1_1_0_0_n_n_wf
def dot_S512x16_S2048x16_S512x2048_1_1_0_0_n_n : DotDims S512x16 S2048x16 S512x2048 where
  lhsContracting := [1]
  rhsContracting := [1]
  lhsNonContracting := [0]
  rhsNonContracting := [0]
  lhsBatch := []
  rhsBatch := []
  wf := dot_S512x16_S2048x16_S512x2048_1_1_0_0_n_n_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_arg5) S1x512x512.size reads0_1 false false 2 stage0_1 sem0_1 nbuf0_1 hstage0_1

abbrev spec0_2 : Pipeline.WinSpec sig grid0.rank :=
  Pipeline.WinSpec.ofSpec (Memref.whole main_v2) S512x2048.size reads0_2 false false 2 stage0_2 sem0_2 nbuf0_2 hstage0_2

abbrev spec0_3 : Pipeline.WinSpec sig grid0.rank :=
  Pipeline.WinSpec.ofSpec (Memref.whole main_v4) S1x16x512.size reads0_3 false false 2 stage0_3 sem0_3 nbuf0_3 hstage0_3

abbrev spec0_4 : Pipeline.WinSpec sig grid0.rank :=
  Pipeline.WinSpec.ofSpec (Memref.whole main_v3) S1x2048x16.size reads0_4 false false 2 stage0_4 sem0_4 nbuf0_4 hstage0_4

abbrev spec0_5 : Pipeline.WinSpec sig grid0.rank :=
  Pipeline.WinSpec.ofSpec (Memref.whole main_arg2) S2048.size reads0_5 false false 2 stage0_5 sem0_5 nbuf0_5 hstage0_5

abbrev spec0_6 : Pipeline.WinSpec sig grid0.rank :=
  Pipeline.WinSpec.ofSpec (Memref.whole main_v5) S1x512x2048.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x16x512.size a ≤ S4x16x4096.size a), EltTy.bits .bf16 = 32 ∨ (Rect.block (s := S4x16x4096) S1x16x512.size (cc0_transform_3 k0_off1_inb numel1_S1 pf i) h).WholeWords (EltTy.packing .bf16)) ∧
  (∀ i : grid0.Coords, ∃ h : (∀ a, (cc0_transform_4 k0_off1_inb numel1_S1 pf i a + 1) * S1x2048x16.size a ≤ S4x4096x16.size a), EltTy.bits .bf16 = 32 ∨ (Rect.block (s := S4x4096x16) S1x2048x16.size (cc0_transform_4 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | 6 => hwx0_6 | ⟨_ + 7, h⟩ => absurd h (Nat.not_lt.2 (Nat.le_add_left _ _))
abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S8 : Shape := ⟨1, ![8]⟩
abbrev S1x1x4096 : Shape := ⟨3, ![1, 1, 4096]⟩
abbrev S_ : Shape := ⟨0, ![]⟩
abbrev S8x1 : Shape := ⟨2, ![8, 1]⟩
abbrev S8x16x4096 : Shape := ⟨3, ![8, 16, 4096]⟩
abbrev S8x4096x16 : Shape := ⟨3, ![8, 4096, 16]⟩
abbrev S8x2048x16 : Shape := ⟨3, ![8, 2048, 16]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S8x2048x4096, .f32⟩
  | .hbm, ⟨6, _⟩ => ⟨S8, .i32⟩
  | .hbm, ⟨7, _⟩ => ⟨S8x2048x4096, .f32⟩
  | .hbm, ⟨8, _⟩ => ⟨S1x1x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .i1⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8x16x4096, .f32⟩
  | .hbm, ⟨31, _⟩ => ⟨S_, .i32⟩
  | .hbm, ⟨32, _⟩ => ⟨S8, .i32⟩
  | .hbm, ⟨33, _⟩ => ⟨S8, .i1⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S8x1, .i32⟩
  | .hbm, ⟨39, _⟩ => ⟨S8x4096x16, .f32⟩
  | .hbm, ⟨40, _⟩ => ⟨S8x2048x16, .f32⟩
  | .hbm, ⟨41, _⟩ => ⟨S8x2048x4096, .f32⟩
  | .hbm, ⟨42, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S_S8 : S_.BroadcastsInDim S8 (![] : Fin 0 → Fin S8.rank)
  bcast_S8_S8x1_0 : S8.BroadcastsInDim S8x1 (![0] : Fin 1 → Fin S8x1.rank)
  dot_S8x2048x4096_S4096x4096_S8x2048x4096_2_1_01_0_n_n_wf : DotDims.WF S8x2048x4096 S4096x4096 S8x2048x4096 [2] [1] [0, 1] [0] [] []
  gather_S4x16x4096_S8x1_S8x16x4096_12_0_n_n_0_1_1164096_wf : GatherDims.WF S4x16x4096 S8x1 S8x16x4096 [1, 2] [0] [] [0] [] 1 ![1, 16, 4096]
  gather_S4x4096x16_S8x1_S8x4096x16_12_0_n_n_0_1_1409616_wf : GatherDims.WF S4x4096x16 S8x1 S8x4096x16 [1, 2] [0] [] [0] [] 1 ![1, 4096, 16]
  dot_S8x2048x4096_S8x16x4096_S8x2048x16_2_2_1_1_0_0_wf : DotDims.WF S8x2048x4096 S8x16x4096 S8x2048x16 [2] [2] [1] [1] [0] [0]
  dot_S8x2048x16_S8x4096x16_S8x2048x4096_2_2_1_1_0_0_wf : DotDims.WF S8x2048x16 S8x4096x16 S8x2048x4096 [2] [2] [1] [1] [0] [0]

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S4x16x4096_S8x1_S8x16x4096_12_0_n_n_0_1_1164096 : GatherDims S4x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S4x16x4096_S8x1_S8x16x4096_12_0_n_n_0_1_1164096_wf
def gather_S4x4096x16_S8x1_S8x4096x16_12_0_n_n_0_1_1409616 : GatherDims S4x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S4x4096x16_S8x1_S8x4096x16_12_0_n_n_0_1_1409616_wf
def dot_S8x2048x4096_S8x16x4096_S8x2048x16_2_2_1_1_0_0 : DotDims S8x2048x4096 S8x16x4096 S8x2048x16 where
  lhsContracting := [2]
  rhsContracting := [2]
  lhsNonContracting := [1]
  rhsNonContracting := [1]
  lhsBatch := [0]
  rhsBatch := [0]
  wf := dot_S8x2048x4096_S8x16x4096_S8x2048x16_2_2_1_1_0_0_wf
def dot_S8x2048x16_S8x4096x16_S8x2048x4096_2_2_1_1_0_0 : DotDims S8x2048x16 S8x4096x16 S8x2048x4096 where
  lhsContracting := [2]
  rhsContracting := [2]
  lhsNonContracting := [1]
  rhsNonContracting := [1]
  lhsBatch := [0]
  rhsBatch := [0]
  wf := dot_S8x2048x16_S8x4096x16_S8x2048x4096_2_2_1_1_0_0_wf

class Facts : Prop extends Facts₀ where

variable [Facts]
-- ==== Proof.Words.lean ====
/-
  Facts about 32-bit words that carry an adapter index.

  An index clipped into [0, 3] by a signed maximum with 0 and a signed minimum with 3 reads, unsigned, at most 3; and
  when the index is non-negative as a signed integer, that clip, and equally the reading "add 4 if negative, then clamp
  the signed value into [0, 3]", are both the unsigned value capped at 3.
-/
import Idealize.ShloMosaic.PureOps.Ideal

namespace Cert.LoraWords

open Idealize.ShloMosaic

theorem ofBool_eq_one (b : Bool) : BitVec.ofBool b = 1#1 ↔ b = true := by cases b <;> decide

/-- Below 2^31 the signed value is the unsigned one. -/
theorem toInt_of_lt (w : BitVec 32) (h : w.toNat < 2 ^ 31) : w.toInt = (w.toNat : Int) := by
  rw [BitVec.toInt_eq_toNat_cond]; split <;> omega

/-- From 2^31 on the signed value is negative. -/
theorem toInt_neg (w : BitVec 32) (h : ¬w.toNat < 2 ^ 31) : w.toInt < 0 := by
  have := w.isLt
  rw [BitVec.toInt_eq_toNat_cond]; split <;> omega

/-- The signed clip of a word into [0, 3]. -/
def clip (w : BitVec 32) : BitVec 32 := IntOp.minsi 3#32 (IntOp.maxsi 0#32 w)

/-- On a non-negative word the clip is the unsigned value capped at 3. -/
theorem clip_of_nonneg (w : BitVec 32) (h : w.toNat < 2 ^ 31) : (clip w).toNat = min w.toNat 3 := by
  have h0 : w.slt 0#32 = false := by
    rw [BitVec.slt, toInt_of_lt w h]; simp
  have e1 : IntOp.maxsi 0#32 w = w := by simp [IntOp.maxsi, h0]
  unfold clip
  rw [e1]
  by_cases h3 : 3 < w.toNat
  · have : (3#32).slt w = true := by
      rw [BitVec.slt, toInt_of_lt w h]; simp; omega
    simp [IntOp.minsi, this]; omega
  · have : (3#32).slt w = false := by
      rw [BitVec.slt, toInt_of_lt w h]; simp; omega
    simp [IntOp.minsi, this]; omega

/-- A clipped word is at most 3, whatever the word. -/
theorem clip_le (w : BitVec 32) : (clip w).toNat ≤ 3 := by
  by_cases h : w.toNat < 2 ^ 31
  · rw [clip_of_nonneg w h]; omega
  · have h0 : w.slt 0#32 = true := by
      have := toInt_neg w h
      rw [BitVec.slt]; simp; omega
    have e1 : IntOp.maxsi 0#32 w = 0#32 := by simp [IntOp.maxsi, h0]
    unfold clip
    rw [e1]
    decide

/-- A word that is non-negative as a signed integer is below 2^31. -/
theorem lt_of_sge (w : BitVec 32) (h : IntOp.cmpi .sge w 0#32 = 1#1) : w.toNat < 2 ^ 31 := by
  have e : IntOp.cmpi .sge w 0#32 = BitVec.ofBool ((0#32).sle w) := rfl
  rw [e, ofBool_eq_one, BitVec.sle] at h
  by_contra hc
  have := toInt_neg w hc
  simp at h
  omega

/-- On a non-negative word, "add 4 if negative" changes nothing. -/
theorem wrap_of_nonneg (w : BitVec 32) (h : w.toNat < 2 ^ 31) :
    Scalar.select (IntOp.cmpi .slt w 0#32) (IntOp.addi w 4#32) w = w := by
  have h0 : w.slt 0#32 = false := by
    rw [BitVec.slt, toInt_of_lt w h]; simp
  have e : IntOp.cmpi .slt w 0#32 = BitVec.ofBool (w.slt 0#32) := rfl
  rw [e, h0]
  exact if_neg (by decide)

/-- The signed value of a non-negative word is its unsigned value. -/
theorem toInt_toNat_of_nonneg (w : BitVec 32) (h : w.toNat < 2 ^ 31) : w.toInt.toNat = w.toNat := by
  rw [toInt_of_lt w h]; omega

end Cert.LoraWords
-- ==== Proof.TableK.lean ====
/-
  The prefetched table of clipped adapter ids, and why every block it names lies inside its array.

  The host clips each row's adapter id into [0, 3] (a signed maximum with 0, then a signed minimum with 3) and hands the
  eight clipped words to the pipeline as a table; the index maps of the two adapter windows read the word of the point's
  batch row as the block index along the stacked adapters' leading axis, of extent 4.  A clipped word is at most 3
  whatever the id, the other block indices are grid coordinates below their extents, and the blocks' second-minor
  extents (16 and 2048) are even, so their 16-bit rows fill whole words: the pipeline's side condition holds of every
  launch memory.
-/
import proofs.«419449_j63342177681727_3_alg».proof.Proof.Gen.Kernel.Frame.Runs
import proofs.«419449_j63342177681727_3_alg».proof.Proof.Words
import Idealize.ShloMosaic.Lib.ValueIdx
import Idealize.ShloMosaic.Lib.Pipeline.Value
import Idealize.ShloMosaic.Lib.StableHlo.Run
import Idealize.ShloMosaic.Lib.Affine

set_option maxRecDepth 16384

noncomputable section

namespace Cert.Kernel.LoraTable

open Cert.Kernel Cert.Kernel.Gen Idealize.ShloMosaic Idealize.ShloMosaic.TcCoe Idealize.ShloMosaic.ValueIdx Idealize.SL.Sem

variable {F : FTy → Type} [FloatOps F]

/-- The word the index maps of the two adapter windows read from the table at grid coordinates i. -/
def tword (pf : pre0.Contents (Elt F)) (i : grid0.Coords) : BitVec 32 :=
  pf.at 0 (Rect.unit (s := S8) ![(Scalar.indexCast (BitVec.ofNat 32 (i 0).val)).toNat] S1.size (k0_off1_inb i)) numel1_S1

/-- That word is one of the table's entries. -/
theorem tword_at (pf : pre0.Contents (Elt F)) (i : grid0.Coords) : ∃ x : S8.Idx, tword pf i = pf 0 x := ⟨_, rfl⟩

set_option maxHeartbeats 400000 in
/-- Window 3's block (the table's word, 0, k) of extents [1, 16, 512] lies inside [4, 16, 4096] when the word is at most 3. -/
theorem inb3 (pf : pre0.Contents (Elt F)) (hpf : ∀ i, (tword pf i).toNat ≤ 3) (i : grid0.Coords) :
    ∀ a, (cc0_transform_3 k0_off1_inb numel1_S1 pf i a + 1) * S1x16x512.size a ≤ S4x16x4096.size a := by
  have h3 : (i 3).val < 8 := (i 3).isLt
  have e3 : (BitVec.ofNat 32 (i 3).val).toNat = (i 3).val := by
    rw [BitVec.toNat_ofNat]; exact Nat.mod_eq_of_lt (by omega)
  have hw := hpf i
  intro a
  match a with
  | ⟨0, _⟩ =>
    show ((tword pf i).toNat + 1) * 1 ≤ 4
    omega
  | ⟨1, _⟩ =>
    show ((0#32 : BitVec 32).toNat + 1) * 16 ≤ 16
    decide
  | ⟨2, _⟩ =>
    show ((BitVec.ofNat 32 (i 3).val).toNat + 1) * 512 ≤ 4096
    rw [e3]; omega

set_option maxHeartbeats 400000 in
/-- Window 4's block (the table's word, o, 0) of extents [1, 2048, 16] lies inside [4, 4096, 16] when the word is at most 3. -/
theorem inb4 (pf : pre0.Contents (Elt F)) (hpf : ∀ i, (tword pf i).toNat ≤ 3) (i : grid0.Coords) :
    ∀ a, (cc0_transform_4 k0_off1_inb numel1_S1 pf i a + 1) * S1x2048x16.size a ≤ S4x4096x16.size a := by
  have h2 : (i 2).val < 2 := (i 2).isLt
  have e2 : (BitVec.ofNat 32 (i 2).val).toNat = (i 2).val := by
    rw [BitVec.toNat_ofNat]; exact Nat.mod_eq_of_lt (by omega)
  have hw := hpf i
  intro a
  match a with
  | ⟨0, _⟩ =>
    show ((tword pf i).toNat + 1) * 1 ≤ 4
    omega
  | ⟨1, _⟩ =>
    show ((BitVec.ofNat 32 (i 2).val).toNat + 1) * 2048 ≤ 4096
    rw [e2]; omega
  | ⟨2, _⟩ =>
    show ((0#32 : BitVec 32).toNat + 1) * 16 ≤ 16
    decide

set_option maxHeartbeats 400000 in
/-- The pipeline's side condition, of any table whose words are at most 3. -/
theorem ok_of (pf : pre0.Contents (Elt F)) (hpf : ∀ i, (tword pf i).toNat ≤ 3) : ok0 (F := F) pf := by
  unfold ok0
  exact ⟨fun i => ⟨inb3 pf hpf i, Or.inr (Affine.block_words_dvd (of_decide_eq_true rfl) (by decide))⟩,
    fun i => ⟨inb4 pf hpf i, Or.inr (Affine.block_words_dvd (of_decide_eq_true rfl) (by decide))⟩⟩

variable (m : (ℓ : Loc nD τ sig) → Buf (Elt F) ℓ)

set_option maxHeartbeats 400000 in
/-- The table's word for batch row x is the signed clip into [0, 3] of the row's adapter id in the launch memory. -/
theorem tbl_apply (x : S8.Idx) : tbl m 0 x = Cert.LoraWords.clip (m (((0 : Dev nD) : Thread nD τ).loc main_arg6) x) := by
  show V m (0 : Dev nD) main_v0 x = _
  dsimp only [Gen.V]
  simp only [hostOps0, hostOps0_1, hostOps0_2, List.flatten_cons, List.flatten_nil, List.append_nil, List.cons_append,
    List.nil_append]
  after_results
  try simp only [StableHlo.TRef.ofBuf, StableHlo.TRef.toBuf, cast_eq]
  all_goals rfl

set_option maxHeartbeats 400000 in
/-- Every word the index maps read from the table is at most 3. -/
theorem tword_le (i : grid0.Coords) : (tword (tbl m) i).toNat ≤ 3 := by
  obtain ⟨x, hx⟩ := tword_at (tbl m) i
  rw [hx, tbl_apply m x]
  exact Cert.LoraWords.clip_le _

/-- The pipeline's side condition holds of every launch memory. -/
theorem ok : Ok m := ok_of (tbl m) (tword_le m)

end Cert.Kernel.LoraTable

end
-- ==== Proof.TableKI.lean ====
/-
  The prefetched table of clipped adapter ids, and why every block it names lies inside its array.

  The host clips each row's adapter id into [0, 3] (a signed maximum with 0, then a signed minimum with 3) and hands the
  eight clipped words to the pipeline as a table; the index maps of the two adapter windows read the word of the point's
  batch row as the block index along the stacked adapters' leading axis, of extent 4.  A clipped word is at most 3
  whatever the id, the other block indices are grid coordinates below their extents, and the blocks' second-minor
  extents (16 and 2048) are even, so their 16-bit rows fill whole words: the pipeline's side condition holds of every
  launch memory.
-/
import proofs.«419449_j63342177681727_3_alg».proof.Proof.Gen.KernelIdeal.Frame.Runs
import proofs.«419449_j63342177681727_3_alg».proof.Proof.Words
import Idealize.ShloMosaic.Lib.ValueIdx
import Idealize.ShloMosaic.Lib.Pipeline.Value
import Idealize.ShloMosaic.Lib.StableHlo.Run
import Idealize.ShloMosaic.Lib.Affine

set_option maxRecDepth 16384

noncomputable section

namespace Cert.KernelIdeal.LoraTable

open Cert.KernelIdeal Cert.KernelIdeal.Gen Idealize.ShloMosaic Idealize.ShloMosaic.TcCoe Idealize.ShloMosaic.ValueIdx Idealize.SL.Sem

variable {F : FTy → Type} [FloatOps F] [Named F]

/-- The word the index maps of the two adapter windows read from the table at grid coordinates i. -/
def tword (pf : pre0.Contents (Elt F)) (i : grid0.Coords) : BitVec 32 :=
  pf.at 0 (Rect.unit (s := S8) ![(Scalar.indexCast (BitVec.ofNat 32 (i 0).val)).toNat] S1.size (k0_off1_inb i)) numel1_S1

/-- That word is one of the table's entries. -/
theorem tword_at (pf : pre0.Contents (Elt F)) (i : grid0.Coords) : ∃ x : S8.Idx, tword pf i = pf 0 x := ⟨_, rfl⟩

set_option maxHeartbeats 400000 in
/-- Window 3's block (the table's word, 0, k) of extents [1, 16, 512] lies inside [4, 16, 4096] when the word is at most 3. -/
theorem inb3 (pf : pre0.Contents (Elt F)) (hpf : ∀ i, (tword pf i).toNat ≤ 3) (i : grid0.Coords) :
    ∀ a, (cc0_transform_3 k0_off1_inb numel1_S1 pf i a + 1) * S1x16x512.size a ≤ S4x16x4096.size a := by
  have h3 : (i 3).val < 8 := (i 3).isLt
  have e3 : (BitVec.ofNat 32 (i 3).val).toNat = (i 3).val := by
    rw [BitVec.toNat_ofNat]; exact Nat.mod_eq_of_lt (by omega)
  have hw := hpf i
  intro a
  match a with
  | ⟨0, _⟩ =>
    show ((tword pf i).toNat + 1) * 1 ≤ 4
    omega
  | ⟨1, _⟩ =>
    show ((0#32 : BitVec 32).toNat + 1) * 16 ≤ 16
    decide
  | ⟨2, _⟩ =>
    show ((BitVec.ofNat 32 (i 3).val).toNat + 1) * 512 ≤ 4096
    rw [e3]; omega

set_option maxHeartbeats 400000 in
/-- Window 4's block (the table's word, o, 0) of extents [1, 2048, 16] lies inside [4, 4096, 16] when the word is at most 3. -/
theorem inb4 (pf : pre0.Contents (Elt F)) (hpf : ∀ i, (tword pf i).toNat ≤ 3) (i : grid0.Coords) :
    ∀ a, (cc0_transform_4 k0_off1_inb numel1_S1 pf i a + 1) * S1x2048x16.size a ≤ S4x4096x16.size a := by
  have h2 : (i 2).val < 2 := (i 2).isLt
  have e2 : (BitVec.ofNat 32 (i 2).val).toNat = (i 2).val := by
    rw [BitVec.toNat_ofNat]; exact Nat.mod_eq_of_lt (by omega)
  have hw := hpf i
  intro a
  match a with
  | ⟨0, _⟩ =>
    show ((tword pf i).toNat + 1) * 1 ≤ 4
    omega
  | ⟨1, _⟩ =>
    show ((BitVec.ofNat 32 (i 2).val).toNat + 1) * 2048 ≤ 4096
    rw [e2]; omega
  | ⟨2, _⟩ =>
    show ((0#32 : BitVec 32).toNat + 1) * 16 ≤ 16
    decide

set_option maxHeartbeats 400000 in
/-- The pipeline's side condition, of any table whose words are at most 3. -/
theorem ok_of (pf : pre0.Contents (Elt F)) (hpf : ∀ i, (tword pf i).toNat ≤ 3) : ok0 (F := F) pf := by
  unfold ok0
  exact ⟨fun i => ⟨inb3 pf hpf i, Or.inr (Affine.block_words_dvd (of_decide_eq_true rfl) (by decide))⟩,
    fun i => ⟨inb4 pf hpf i, Or.inr (Affine.block_words_dvd (of_decide_eq_true rfl) (by decide))⟩⟩

variable (m : (ℓ : Loc nD τ sig) → Buf (Elt F) ℓ)

set_option maxHeartbeats 400000 in
/-- The table's word for batch row x is the signed clip into [0, 3] of the row's adapter id in the launch memory. -/
theorem tbl_apply (x : S8.Idx) : tbl m 0 x = Cert.LoraWords.clip (m (((0 : Dev nD) : Thread nD τ).loc main_arg6) x) := by
  show V m (0 : Dev nD) main_v0 x = _
  dsimp only [Gen.V]
  simp only [hostOps0, hostOps0_1, hostOps0_2, List.flatten_cons, List.flatten_nil, List.append_nil, List.cons_append,
    List.nil_append]
  after_results
  try simp only [StableHlo.TRef.ofBuf, StableHlo.TRef.toBuf, cast_eq]
  all_goals rfl

set_option maxHeartbeats 400000 in
/-- Every word the index maps read from the table is at most 3. -/
theorem tword_le (i : grid0.Coords) : (tword (tbl m) i).toNat ≤ 3 := by
  obtain ⟨x, hx⟩ := tword_at (tbl m) i
  rw [hx, tbl_apply m x]
  exact Cert.LoraWords.clip_le _

/-- The pipeline's side condition holds of every launch memory. -/
theorem ok : Ok m := ok_of (tbl m) (tword_le m)

end Cert.KernelIdeal.LoraTable

end
-- ==== Proof.PreIds.lean ====
/-
  The last conjunct of the printed precondition, read back.

  The precondition is a conjunction of seven all-tests joined by "and"; the seventh says that every adapter id is at
  least 0 as a signed 32-bit integer.  From the whole conjunction being 1 the seventh conjunct is 1; an all-test that
  is 1 had a 1 at every index; and a signed comparison "id >= 0" that is 1 says the id, read unsigned, is below 2^31.
-/
import proofs.«419449_j63342177681727_3_alg».proof.Pre_finite_inputs
import Idealize.ShloMosaic.Lib.ReduceAll
import Idealize.ShloMosaic.Lib.ValueIdx
import Idealize.ShloMosaic.Lib.Affine
import proofs.«419449_j63342177681727_3_alg».proof.Proof.Words

namespace Cert.LoraPre

open Idealize.ShloMosaic Idealize.ShloMosaic.ValueIdx

/-- The scalar shape has one index. -/
instance : Subsingleton Cert.Pre_finite_inputs.S_.Idx := ⟨fun a b => funext fun d => d.elim0⟩

/-- Under the printed precondition every adapter id, read unsigned, is below 2^31. -/
theorem ids_nonneg [Cert.Pre_finite_inputs.Facts] {F : FTy → Type} [FloatOps F]
    (a0 : FVec F Cert.Pre_finite_inputs.S8x2048x4096 .f32) (a1 : FVec F Cert.Pre_finite_inputs.S4096x4096 .f32) (a2 : FVec F Cert.Pre_finite_inputs.S4096 .f32) (a3 : FVec F Cert.Pre_finite_inputs.S4x16x4096 .f32) (a4 : FVec F Cert.Pre_finite_inputs.S4x4096x16 .f32) (a5 : FVec F Cert.Pre_finite_inputs.S8x2048x4096 .f32) (ids : IVec Cert.Pre_finite_inputs.S8 32)
    (h : Cert.Pre_finite_inputs.fn (F := F) a0 a1 a2 a3 a4 a5 ids = fun _ => 1#1) (b : Fin 8) :
    (ids (ValueIdx.ix1 b)).toNat < 2 ^ 31 := by
  have e := congrFun h ValueIdx.ix0
  unfold Cert.Pre_finite_inputs.fn Cert.Pre_finite_inputs.fn_part1 at e
  -- the outermost "and" is (first six tests) and (the id test)
  have e7 := (IntOp.andi_eq_one.1 e).2
  -- an all-test that is 1 is 1 at every index
  have eb := Host.reduce_andi_all _ _ _ _ _ e7 (ValueIdx.ix1 b)
  exact Cert.LoraWords.lt_of_sge _ eb

end Cert.LoraPre
-- ==== Proof.Spec.lean ====
/-
  The function both programs compute, index by index over the extended reals.

  For batch row b, sequence position s and output feature o,

    out[b,s,o] = (sum_d x[b,s,d] * W[o,d] + bias[o]) + sum_r h[b,s,r] * Bw[a_b,o,r],
    h[b,s,r]   = sum_d xd[b,s,d] * A[a_b,r,d],
    xd[b,s,d]  = x[b,s,d] * keep(u[b,s,d]) * 2,

  where keep(u) is 1/(19/20 as the f32 word reads) when u is at least the f32 word of 0.05 and 0 otherwise (inverted
  dropout), and a_b is the adapter index of row b clamped into [0, 3].  The sums over the 4096 input features are also
  written as eight consecutive blocks of 512, which is the order in which a blocked accumulation meets them; over a
  commutative monoid the two are equal (sum_blocks), and a running total over the first k+1 blocks is a range sum
  (partial_succ, partial_all).
-/
import Idealize.ShloMosaic.PureOps.Ideal
import Idealize.ShloMosaic.Lib.ValueIdx
import Mathlib.Algebra.BigOperators.Fin

noncomputable section

open scoped BigOperators

namespace Cert.LoraSpec

open Idealize.ShloMosaic Idealize.ShloMosaic.ValueIdx

abbrev SX : Shape := ⟨3, ![8, 2048, 4096]⟩
abbrev SW : Shape := ⟨2, ![4096, 4096]⟩
abbrev SB : Shape := ⟨1, ![4096]⟩
abbrev SA : Shape := ⟨3, ![4, 16, 4096]⟩
abbrev SBw : Shape := ⟨3, ![4, 4096, 16]⟩
abbrev SId : Shape := ⟨1, ![8]⟩

/-- The dropout threshold, the f32 word of 0.05 (the same word in both programs; never evaluated). -/
def thr : EReal := Ideal.ofBits .f32 0x3D4CCCCD#32
/-- The LoRA scaling alpha / r, the f32 word of 2 (the same word in both programs; never evaluated). -/
def two : EReal := Ideal.ofBits .f32 0x40000000#32
/-- The reciprocal of the keep probability: 1 / D with D = 15938355 / 16777216 the value of the f32 word of 19/20. -/
def invKeep : EReal := ((16777216 / 15938355 : ℝ) : EReal)

/-- Inverted dropout's factor for a uniform draw u: 1/D where the element is kept, 0 where it is dropped. -/
def keep (u : EReal) : EReal := if thr ≤ u then invKeep else 0

/-- The adapter index of batch row b: the row's id read unsigned and clamped to the last adapter. -/
def aidOf (ids : SId.Idx → BitVec 32) (b : Fin 8) : Fin 4 := ⟨min (ids (ix1 b)).toNat 3, by omega⟩

variable (x : SX.Idx → EReal) (W : SW.Idx → EReal) (bias : SB.Idx → EReal) (A : SA.Idx → EReal)
  (Bw : SBw.Idx → EReal) (u : SX.Idx → EReal) (a : Fin 8 → Fin 4)

/-- The dropped-out, scaled activation. -/
def xd (b : Fin 8) (s : Fin 2048) (d : Fin 4096) : EReal := x (ix3 b s d) * keep (u (ix3 b s d)) * two

/-- One term of the base product's sum over the input features. -/
def baseTerm (b : Fin 8) (s : Fin 2048) (o : Fin 4096) (d : Fin 4096) : EReal := x (ix3 b s d) * W (ix2 o d)
/-- One term of the down-projection's sum over the input features. -/
def downTerm (b : Fin 8) (s : Fin 2048) (r : Fin 16) (d : Fin 4096) : EReal := xd x u b s d * A (ix3 (a b) r d)

/-- The down-projection h = xd · A[a_b]ᵀ. -/
def hid (b : Fin 8) (s : Fin 2048) (r : Fin 16) : EReal := ∑ d : Fin 4096, downTerm x A u a b s r d

/-- The whole layer at one index. -/
def out (b : Fin 8) (s : Fin 2048) (o : Fin 4096) : EReal :=
  (∑ d : Fin 4096, baseTerm x W b s o d + bias (ix1 o)) + ∑ r : Fin 16, hid x A u a b s r * Bw (ix3 (a b) o r)

/-- The result array. -/
def result : SX.Idx → EReal := fun j => out x W bias A Bw u a (j 0) (j 1) (j 2)

/-! ## A sum over 4096 features as eight blocks of 512 -/

section Blocks
variable {M : Type*} [AddCommMonoid M]

/-- Feature e of block k. -/
def feat (k : Fin 8) (e : Fin 512) : Fin 4096 := ⟨512 * k.val + e.val, by omega⟩

/-- The sum over block k. -/
def blockSum (f : Fin 4096 → M) (k : Fin 8) : M := ∑ e : Fin 512, f (feat k e)

/-- The sum over all features is the sum of the eight block sums. -/
theorem sum_blocks (f : Fin 4096 → M) : ∑ d : Fin 4096, f d = ∑ k : Fin 8, blockSum f k := by
  unfold blockSum
  rw [← Fintype.sum_prod_type', ← Equiv.sum_comp (finProdFinEquiv (m := 8) (n := 512)) f]
  refine Finset.sum_congr rfl fun p _ => congrArg f (Fin.ext ?_)
  show p.2.val + 512 * p.1.val = 512 * p.1.val + p.2.val
  omega

/-- The running total over the first n blocks (blocks past the eighth count nothing). -/
def partialSum (f : Fin 4096 → M) (n : ℕ) : M :=
  ∑ i ∈ Finset.range n, if h : i < 8 then blockSum f ⟨i, h⟩ else 0

theorem partial_zero (f : Fin 4096 → M) : partialSum f 0 = 0 := by
  unfold partialSum; rw [Finset.range_zero, Finset.sum_empty]

/-- One more block joins the running total. -/
theorem partial_succ (f : Fin 4096 → M) (k : Fin 8) : partialSum f (k.val + 1) = partialSum f k.val + blockSum f k := by
  unfold partialSum; rw [Finset.sum_range_succ, dif_pos k.isLt]

/-- After all eight blocks the running total is the whole sum. -/
theorem partial_all (f : Fin 4096 → M) : partialSum f 8 = ∑ d : Fin 4096, f d := by
  rw [sum_blocks]
  unfold partialSum
  rw [Finset.sum_range]
  exact Finset.sum_congr rfl fun i _ => dif_pos i.isLt

end Blocks

/-! ## The dropout factor as each program spells it -/

theorem toNat_cmp_le (p : Prop) [Decidable p] : ((BitVec.ofBool (decide p)).toNat : ℝ) = if p then 1 else 0 := by
  by_cases h : p <;> simp [h]

/-- The comparison's bit, widened to 32 bits and read as a signed integer, times the reciprocal: the factor. -/
theorem keep_of_mask_mul (v : EReal) :
    (((((Ideal.cmp .oge v thr).setWidth 32).toInt : ℝ) : EReal)) * invKeep = keep v := by
  unfold keep Ideal.cmp
  by_cases h : thr ≤ v
  · simp [h]
  · simp [h]

/-- The value of the f32 word of 19/20. -/
theorem ofBits_keepProb : Ideal.ofBits .f32 0x3F733333#32 = ((15938355 / 16777216 : ℝ) : EReal) := by
  simp [Ideal.ofBits, Ideal.ieee, -EReal.coe_mul]; norm_num

/-- The comparison's bit read unsigned, divided by the keep probability's word: the factor. -/
theorem keep_of_mask_div (v : EReal) :
    Ideal.div ((((Ideal.cmp .oge v thr).toNat : ℝ) : EReal)) (Ideal.ofBits .f32 0x3F733333#32) = keep v := by
  rw [ofBits_keepProb, Ideal.div_coe (by norm_num)]
  unfold keep Ideal.cmp invKeep
  by_cases h : thr ≤ v
  · simp [h]
  · simp [h]

end Cert.LoraSpec

end
-- ==== Proof.RefValue.lean ====
/-
  The reference program's value is the specification, index by index.

  The reference's result at (b, s, o) is (sum_d x[b,s,d] * W[o,d] + bias[o]) + sum_r h[b,s,r] * Bw_g[b,o,r] with
  h[b,s,r] = sum_d xd[b,s,d] * A_g[b,r,d].  Every stage but the two row gathers A_g = A[id], Bw_g = Bw[id] is read at an
  index by its generated lemma.  A row gather reads, at (b, p, q), the operand at (c, p, q), where c is the start word
  of row b read as a signed integer and clamped into [0, N - 1]; this is proved below from the definition of the
  operand index.  The start word is "id + 4 if id < 0 else id"; when the id is non-negative as a signed integer this
  is the id, its signed reading is its unsigned one, and the clamp is the unsigned value capped at 3: the
  specification's adapter index.  The dropout factor, the comparison's bit converted and divided by the word of
  19/20, is the specification's factor.  The sums over the 4096 features and the 16 ranks then agree term by term.
-/
import proofs.«419449_j63342177681727_3_alg».proof.Proof.Gen.ReferenceIdeal.Run
import proofs.«419449_j63342177681727_3_alg».proof.Proof.Gen.ReferenceIdeal.Read
import proofs.«419449_j63342177681727_3_alg».proof.Proof.Spec
import proofs.«419449_j63342177681727_3_alg».proof.Proof.Words
import Idealize.ShloMosaic.Lib.ValueIdx

noncomputable section

open scoped BigOperators

namespace Cert.ReferenceIdeal.LoraRef

open Cert.ReferenceIdeal Cert.ReferenceIdeal.Gen Cert.ReferenceIdeal.Read Idealize.ShloMosaic Idealize.ShloMosaic.ValueIdx

/-! ## A gather of whole rows, read at an index

The operand is [N, P, Q], the start indices are [B, 1] and the result is [B, P, Q]: offset axes 1 and 2, axis 0
collapsed, the start index map [0], slices of one whole row.  Result element (b, p, q) is the operand at (c, p, q)
with c the start word idx[b, 0] read as a signed integer and clamped into [0, N - 1]. -/

section Row
variable {α : Type} {N B P Q w : Nat}

/-- Those dimension numbers; their conditions are decided on a program's literal shapes. -/
abbrev rowDims (N B P Q : Nat)
    (wf : GatherDims.WF ⟨3, ![N, P, Q]⟩ ⟨2, ![B, 1]⟩ ⟨3, ![B, P, Q]⟩ [1, 2] [0] [] [0] [] 1 ![1, P, Q]) :
    GatherDims ⟨3, ![N, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

variable (wf : GatherDims.WF ⟨3, ![N, P, Q]⟩ ⟨2, ![B, 1]⟩ ⟨3, ![B, P, Q]⟩ [1, 2] [0] [] [0] [] 1 ![1, P, Q])
  (idx : IVec ⟨2, ![B, 1]⟩ w) (b : Fin B) (p : Fin P) (q : Fin Q)

/-- The start-indices index result index (b, p, q) reads its one start component at: [b, 0]. -/
theorem row_siIdx (c : Fin (rowDims N B P Q wf).startIndexMap.length) :
    (rowDims N B P Q wf).siIdx (ix3 b p q) c = ix2 b (0 : Fin 1) := by
  funext a
  refine Fin.ext ?_
  match a with
  | ⟨0, _⟩ => rfl
  | ⟨1, _⟩ =>
    show c.val = 0
    exact Nat.lt_one_iff.mp c.isLt

/-- On the gathered axis the operand coordinate is the clamped start word. -/
theorem row_operand0 :
    ((rowDims N B P Q wf).operandIdx (ix3 b p q) idx 0).val = min (idx (ix2 b (0 : Fin 1))).toInt.toNat (N - 1) := by
  show (rowDims N B P Q wf).start (ix3 b p q) idx 0 + (rowDims N B P Q wf).batchCoord (ix3 b p q) 0
    + (rowDims N B P Q wf).offCoord (ix3 b p q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowDims N B P Q wf).startIndexMap from List.mem_singleton.mpr rfl), row_siIdx]
  rfl

/-- On the first offset axis the operand coordinate is the result's. -/
theorem row_operand1 : ((rowDims N B P Q wf).operandIdx (ix3 b p q) idx 1).val = p.val := by
  show (rowDims N B P Q wf).start (ix3 b p q) idx 1 + (rowDims N B P Q wf).batchCoord (ix3 b p q) 1
    + (rowDims N B P Q wf).offCoord (ix3 b p q) 1 = _
  have hs : (rowDims N B P Q wf).start (ix3 b p q) idx 1 = 0 := by
    rfl
  have ho : (rowDims N B P Q wf).offCoord (ix3 b p q) 1 = p.val := by
    rfl
  rw [GatherDims.batchCoord_eq_zero _ _ _ List.not_mem_nil, hs, ho, Nat.add_zero, Nat.zero_add]

/-- On the second offset axis the operand coordinate is the result's. -/
theorem row_operand2 : ((rowDims N B P Q wf).operandIdx (ix3 b p q) idx 2).val = q.val := by
  show (rowDims N B P Q wf).start (ix3 b p q) idx 2 + (rowDims N B P Q wf).batchCoord (ix3 b p q) 2
    + (rowDims N B P Q wf).offCoord (ix3 b p q) 2 = _
  have hs : (rowDims N B P Q wf).start (ix3 b p q) idx 2 = 0 := by
    rfl
  have ho : (rowDims N B P Q wf).offCoord (ix3 b p q) 2 = q.val := by
    rfl
  rw [GatherDims.batchCoord_eq_zero _ _ _ List.not_mem_nil, hs, ho, Nat.add_zero, Nat.zero_add]

/-- THE ROW GATHER READ AT (b, p, q): the operand's row at the start word read signed and clamped into [0, N - 1]. -/
theorem gather_row_apply (hN : 0 < N) (x : (⟨3, ![N, P, Q]⟩ : Shape).Idx → α) :
    Host.gather (rowDims N B P Q wf) x idx (ix3 b p q)
      = x (ix3 (⟨min (idx (ix2 b (0 : Fin 1))).toInt.toNat (N - 1), by omega⟩ : Fin N) p q) := by
  unfold Host.gather
  refine congrArg x (funext fun a => Fin.ext ?_)
  match a with
  | ⟨0, _⟩ => exact row_operand0 wf idx b p q
  | ⟨1, _⟩ => exact row_operand1 wf idx b p q
  | ⟨2, _⟩ => exact row_operand2 wf idx b p q

end Row

/-! ## The start word of row b -/

variable (x0 : (⟨S8x2048x4096, .f32⟩ : BufTy).Contents (Elt Ideal)) (x1 : (⟨S4096x4096, .f32⟩ : BufTy).Contents (Elt Ideal))
  (x2 : (⟨S4096, .f32⟩ : BufTy).Contents (Elt Ideal)) (x3 : (⟨S4x16x4096, .f32⟩ : BufTy).Contents (Elt Ideal))
  (x4 : (⟨S4x4096x16, .f32⟩ : BufTy).Contents (Elt Ideal)) (x5 : (⟨S8x2048x4096, .f32⟩ : BufTy).Contents (Elt Ideal))
  (x6 : (⟨S8, .i32⟩ : BufTy).Contents (Elt Ideal))

/-- The clamp of a non-negative start word is the specification's adapter index. -/
theorem clamp_eq (hids : ∀ b : Fin 8, (x6 (ix1 b)).toNat < 2 ^ 31) (b : Fin 8) (w : BitVec 32) (hw : w = x6 (ix1 b))
    (h : min w.toInt.toNat (4 - 1) < 4) :
    (⟨min w.toInt.toNat (4 - 1), h⟩ : Fin 4) = Cert.LoraSpec.aidOf x6 b := by
  subst hw
  refine Fin.ext ?_
  show min (x6 (ix1 b)).toInt.toNat (4 - 1) = min (x6 (ix1 b)).toNat 3
  rw [Cert.LoraWords.toInt_toNat_of_nonneg _ (hids b)]

/-- The start word the first gather reads for row b is the row's id, when the id is non-negative. -/
theorem v17_at (hids : ∀ b : Fin 8, (x6 (ix1 b)).toNat < 2 ^ 31) (b : Fin 8) :
    val_main_v17 (F := Ideal) x6 (ix2 b (0 : Fin 1)) = x6 (ix1 b) := by
  have e : idx_main_v17 (ix2 b (0 : Fin 1)) = ix1 b := by
    funext a; match a with | ⟨0, _⟩ => rfl
  rw [val_main_v17_apply, e]
  simp only [val_main_v16_apply, val_main_v13_apply, val_main_v15_apply, val_main_v12_apply, val_main_v14_apply,
    val_main_c_apply, val_main_c_2_apply]
  exact Cert.LoraWords.wrap_of_nonneg _ (hids b)

/-- The start word the second gather reads for row b is the row's id, when the id is non-negative. -/
theorem v24_at (hids : ∀ b : Fin 8, (x6 (ix1 b)).toNat < 2 ^ 31) (b : Fin 8) :
    val_main_v24 (F := Ideal) x6 (ix2 b (0 : Fin 1)) = x6 (ix1 b) := by
  have e : idx_main_v24 (ix2 b (0 : Fin 1)) = ix1 b := by
    funext a; match a with | ⟨0, _⟩ => rfl
  rw [val_main_v24_apply, e]
  simp only [val_main_v23_apply, val_main_v20_apply, val_main_v22_apply, val_main_v19_apply, val_main_v21_apply,
    val_main_c_3_apply, val_main_c_4_apply]
  exact Cert.LoraWords.wrap_of_nonneg _ (hids b)

/-! ## The two gathered operands -/

/-- A[id] at (b, r, d) is A at the specification's adapter index of row b. -/
theorem v18_at (hids : ∀ b : Fin 8, (x6 (ix1 b)).toNat < 2 ^ 31) (b : Fin 8) (r : Fin 16) (d : Fin 4096) :
    val_main_v18 (F := Ideal) x3 x6 (ix3 b r d) = x3 (ix3 (Cert.LoraSpec.aidOf x6 b) r d) := by
  unfold val_main_v18
  refine (gather_row_apply (N := 4) (B := 8) (P := 16) (Q := 4096)
    gather_S4x16x4096_S8x1_S8x16x4096_12_0_n_n_0_1_1164096_wf (val_main_v17 (F := Ideal) x6) b r d (by decide) x3).trans ?_
  exact congrArg (fun a : Fin 4 => x3 (ix3 a r d)) (clamp_eq x6 hids b _ (v17_at x6 hids b) _)

/-- Bw[id] at (b, o, r) is Bw at the specification's adapter index of row b. -/
theorem v25_at (hids : ∀ b : Fin 8, (x6 (ix1 b)).toNat < 2 ^ 31) (b : Fin 8) (o : Fin 4096) (r : Fin 16) :
    val_main_v25 (F := Ideal) x4 x6 (ix3 b o r) = x4 (ix3 (Cert.LoraSpec.aidOf x6 b) o r) := by
  unfold val_main_v25
  refine (gather_row_apply (N := 4) (B := 8) (P := 4096) (Q := 16)
    gather_S4x4096x16_S8x1_S8x4096x16_12_0_n_n_0_1_1409616_wf (val_main_v24 (F := Ideal) x6) b o r (by decide) x4).trans ?_
  exact congrArg (fun a : Fin 4 => x4 (ix3 a o r)) (clamp_eq x6 hids b _ (v24_at x6 hids b) _)

/-! ## The stages at an index -/

/-- The dropped-out, scaled activation. -/
theorem v11_at (b : Fin 8) (s : Fin 2048) (d : Fin 4096) :
    val_main_v11 (F := Ideal) x0 x5 (ix3 b s d) = Cert.LoraSpec.xd x0 x5 b s d := by
  simp only [val_main_v11_apply, val_main_v9_apply, val_main_v8_apply, val_main_v6_apply, val_main_v5_apply,
    val_main_v4_apply, val_main_v7_apply, val_main_v10_apply, val_main_cst_apply, val_main_cst_0_apply,
    val_main_cst_1_apply]
  exact congrArg (fun k => x0 (ix3 b s d) * k * Cert.LoraSpec.two) (Cert.LoraSpec.keep_of_mask_div (x5 (ix3 b s d)))

/-- The base product plus the bias. -/
theorem v3_at (b : Fin 8) (s : Fin 2048) (o : Fin 4096) :
    val_main_v3 (F := Ideal) x0 x1 x2 (ix3 b s o)
      = ∑ d : Fin 4096, Cert.LoraSpec.baseTerm x0 x1 b s o d + x2 (ix1 o) := by
  have e2 : idx_main_v1 (idx_main_v2 (ix3 b s o)) = ix1 o := by
    funext a; match a with | ⟨0, _⟩ => rfl
  rw [val_main_v3_apply, val_main_v0_apply, val_main_v2_apply, val_main_v1_apply, e2]
  refine congrArg (· + x2 (ix1 o)) (Finset.sum_congr rfl fun k _ => ?_)
  have el : lidx_main_v0 (ix3 b s o) k = ix3 b s k := by
    funext a; match a with | ⟨0, _⟩ => rfl | ⟨1, _⟩ => rfl | ⟨2, _⟩ => rfl
  have er : ridx_main_v0 (ix3 b s o) k = ix2 o k := by
    funext a; match a with | ⟨0, _⟩ => rfl | ⟨1, _⟩ => rfl
  rw [el, er]
  rfl

/-- The down-projection. -/
theorem v26_at (hids : ∀ b : Fin 8, (x6 (ix1 b)).toNat < 2 ^ 31) (b : Fin 8) (s : Fin 2048) (r : Fin 16) :
    val_main_v26 (F := Ideal) x0 x3 x5 x6 (ix3 b s r) = Cert.LoraSpec.hid x0 x3 x5 (Cert.LoraSpec.aidOf x6) b s r := by
  rw [val_main_v26_apply]
  refine Finset.sum_congr rfl fun k _ => ?_
  have el : lidx_main_v26 (ix3 b s r) k = ix3 b s k := by
    funext a; match a with | ⟨0, _⟩ => rfl | ⟨1, _⟩ => rfl | ⟨2, _⟩ => rfl
  have er : ridx_main_v26 (ix3 b s r) k = ix3 b r k := by
    funext a; match a with | ⟨0, _⟩ => rfl | ⟨1, _⟩ => rfl | ⟨2, _⟩ => rfl
  rw [el, er, v11_at, v18_at x3 x6 hids]
  rfl

/-- The up-projection. -/
theorem v27_at (hids : ∀ b : Fin 8, (x6 (ix1 b)).toNat < 2 ^ 31) (b : Fin 8) (s : Fin 2048) (o : Fin 4096) :
    val_main_v27 (F := Ideal) x0 x3 x4 x5 x6 (ix3 b s o)
      = ∑ r : Fin 16, Cert.LoraSpec.hid x0 x3 x5 (Cert.LoraSpec.aidOf x6) b s r * x4 (ix3 (Cert.LoraSpec.aidOf x6 b) o r) := by
  rw [val_main_v27_apply]
  refine Finset.sum_congr rfl fun k _ => ?_
  have el : lidx_main_v27 (ix3 b s o) k = ix3 b s k := by
    funext a; match a with | ⟨0, _⟩ => rfl | ⟨1, _⟩ => rfl | ⟨2, _⟩ => rfl
  have er : ridx_main_v27 (ix3 b s o) k = ix3 b o k := by
    funext a; match a with | ⟨0, _⟩ => rfl | ⟨1, _⟩ => rfl | ⟨2, _⟩ => rfl
  rw [el, er, v26_at x0 x3 x5 x6 hids, v25_at x4 x6 hids]

/-- The reference's result at (b, s, o) is the specification's. -/
theorem ref_at (hids : ∀ b : Fin 8, (x6 (ix1 b)).toNat < 2 ^ 31) (b : Fin 8) (s : Fin 2048) (o : Fin 4096) :
    val_main_v28 (F := Ideal) x0 x1 x2 x3 x4 x5 x6 (ix3 b s o)
      = Cert.LoraSpec.out x0 x1 x2 x3 x4 x5 (Cert.LoraSpec.aidOf x6) b s o := by
  rw [val_main_v28_apply, v3_at, v27_at x0 x3 x4 x5 x6 hids]
  rfl

/-- THE REFERENCE IS THE SPECIFICATION, when every adapter id is non-negative as a signed integer. -/
theorem ref_is_spec (x0 : (⟨S8x2048x4096, .f32⟩ : BufTy).Contents (Elt Ideal)) (x1 : (⟨S4096x4096, .f32⟩ : BufTy).Contents (Elt Ideal)) (x2 : (⟨S4096, .f32⟩ : BufTy).Contents (Elt Ideal)) (x3 : (⟨S4x16x4096, .f32⟩ : BufTy).Contents (Elt Ideal)) (x4 : (⟨S4x4096x16, .f32⟩ : BufTy).Contents (Elt Ideal)) (x5 : (⟨S8x2048x4096, .f32⟩ : BufTy).Contents (Elt Ideal)) (x6 : (⟨S8, .i32⟩ : BufTy).Contents (Elt Ideal))
    (hids : ∀ b : Fin 8, (x6 (ValueIdx.ix1 b)).toNat < 2 ^ 31) :
    Cert.ReferenceIdeal.Read.val_main_v28 (F := Ideal) x0 x1 x2 x3 x4 x5 x6
      = Cert.LoraSpec.result x0 x1 x2 x3 x4 x5 (Cert.LoraSpec.aidOf x6) := by
  funext j
  have e : j = ix3 (n0 := 8) (n1 := 2048) (n2 := 4096) (j 0) (j 1) (j 2) := eq_ix3 j
  have h := ref_at x0 x1 x2 x3 x4 x5 x6 hids (j 0) (j 1) (j 2)
  exact (congrArg (val_main_v28 (F := Ideal) x0 x1 x2 x3 x4 x5 x6) e).trans h

end Cert.ReferenceIdeal.LoraRef

end
-- ==== Proof.KPiece.lean ====
/-
  What each control case of the kernel body leaves behind, as the body's stored values.

  The body has three cases by the reduction step k.  At k = 0 it stores zero into both running totals and then adds the
  step's block terms to what it reads back; at 0 < k < 7 it adds the step's block terms to what the step before left; at
  k = 7 it does the same and then stores the output block, computed from the two totals it has just stored.  Each
  buffer's final contents are its last covering store's value, whose loads read whole buffers.  Stated for every grid
  point: the carried totals after point t are the update of the totals after point t - 1 (or of zero at k = 0).
-/
import proofs.«419449_j63342177681727_3_alg».proof.Proof.FrameKI
import Idealize.ShloMosaic.Lib.Pipeline.Value

set_option maxRecDepth 16384

noncomputable section

namespace Cert.KernelIdeal.LoraPiece

open Cert.KernelIdeal Cert.KernelIdeal.Gen Cert.KernelIdeal.GenP Idealize.ShloMosaic Idealize.ShloMosaic.TcCoe Idealize.ShloMosaic.Tactic Idealize.SL.Sem

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The cases' stored values -/

/-- k = 0: the base total ends at zero's update by the step's base product. -/
theorem sA0 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : cond0_0 i) (hc1 : ¬cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) :
    sout0_A_0 c i arg5 harg5 arg6 harg6 arg7 harg7 arg8 harg8 arg9 harg9 arg10 harg10 arg11 harg11 arg12 harg12 arg13 harg13 hc0 hc1 x0 x1 x2 x3 x4 x5 xt0 = k0_pay6 x0 x2 (k0_pay3 (F := F)) := by
  unfold sout0_A_0
  rw [View.read_writes_eq_canon _ _ _ (scover0_A_0 c i arg5 harg5 arg6 harg6 arg7 harg7 arg8 harg8 arg9 harg9 arg10 harg10 arg11 harg11 arg12 harg12 arg13 harg13 hc0 hc1 x0 x1 x2 x3 x4 x5 xt0)]
  unfold kernelRun0_A
  dsimp only
  sl_unfold_words
  rw [View.canon_cons_unit_zero (S := S512x2048) hz2, View.readCov_unit_zero (S := S512x2048) _ hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- k = 0: the down-projection total ends at zero's update by the step's term. -/
theorem sA1 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : cond0_0 i) (hc1 : ¬cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) :
    sout0_A_1 c i arg5 harg5 arg6 harg6 arg7 harg7 arg8 harg8 arg9 harg9 arg10 harg10 arg11 harg11 arg12 harg12 arg13 harg13 hc0 hc1 x0 x1 x2 x3 x4 x5 xt0 = k0_pay1 (k0_pay7 x0 x1 x3) (k0_pay4 (F := F)) := by
  unfold sout0_A_1
  rw [View.read_writes_eq_canon _ _ _ (scover0_A_1 c i arg5 harg5 arg6 harg6 arg7 harg7 arg8 harg8 arg9 harg9 arg10 harg10 arg11 harg11 arg12 harg12 arg13 harg13 hc0 hc1 x0 x1 x2 x3 x4 x5 xt0)]
  unfold kernelRun0_A
  dsimp only
  sl_unfold_words
  rw [View.canon_cons_unit_zero (S := S512x16) hz2, View.readCov_unit_zero (S := S512x16) _ hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- 0 < k < 7: the base total found, updated. -/
theorem sB0 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : ¬cond0_0 i) (hc1 : ¬cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) (xs0 : Vec F S512x2048 .f32) (xs1 : Vec F S512x16 .f32) :
    sout0_B_0 c i arg5 harg5 arg6 harg6 arg7 harg7 arg8 harg8 arg9 harg9 arg10 harg10 arg11 harg11 arg12 harg12 arg13 harg13 hc0 hc1 x0 x1 x2 x3 x4 x5 xt0 xs0 xs1 = k0_pay6 x0 x2 xs0 := by
  unfold sout0_B_0
  rw [View.read_writes_eq_canon _ _ _ (scover0_B_0 c i arg5 harg5 arg6 harg6 arg7 harg7 arg8 harg8 arg9 harg9 arg10 harg10 arg11 harg11 arg12 harg12 arg13 harg13 hc0 hc1 x0 x1 x2 x3 x4 x5 xt0 xs0 xs1)]
  unfold kernelRun0_B
  dsimp only
  sl_unfold_words
  rw [View.canon_unit_zero hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- 0 < k < 7: the down-projection total found, updated. -/
theorem sB1 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : ¬cond0_0 i) (hc1 : ¬cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) (xs0 : Vec F S512x2048 .f32) (xs1 : Vec F S512x16 .f32) :
    sout0_B_1 c i arg5 harg5 arg6 harg6 arg7 harg7 arg8 harg8 arg9 harg9 arg10 harg10 arg11 harg11 arg12 harg12 arg13 harg13 hc0 hc1 x0 x1 x2 x3 x4 x5 xt0 xs0 xs1 = k0_pay1 (k0_pay7 x0 x1 x3) xs1 := by
  unfold sout0_B_1
  rw [View.read_writes_eq_canon _ _ _ (scover0_B_1 c i arg5 harg5 arg6 harg6 arg7 harg7 arg8 harg8 arg9 harg9 arg10 harg10 arg11 harg11 arg12 harg12 arg13 harg13 hc0 hc1 x0 x1 x2 x3 x4 x5 xt0 xs0 xs1)]
  unfold kernelRun0_B
  dsimp only
  sl_unfold_words
  rw [View.canon_unit_zero hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- k = 7: the base total found, updated. -/
theorem sC0 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : ¬cond0_0 i) (hc1 : cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) (xs0 : Vec F S512x2048 .f32) (xs1 : Vec F S512x16 .f32) :
    sout0_C_0 c i arg5 harg5 arg6 harg6 arg7 harg7 arg8 harg8 arg9 harg9 arg10 harg10 arg11 harg11 arg12 harg12 arg13 harg13 hc0 hc1 x0 x1 x2 x3 x4 x5 xt0 xs0 xs1 = k0_pay6 x0 x2 xs0 := by
  unfold sout0_C_0
  rw [View.read_writes_eq_canon _ _ _ (scover0_C_0 c i arg5 harg5 arg6 harg6 arg7 harg7 arg8 harg8 arg9 harg9 arg10 harg10 arg11 harg11 arg12 harg12 arg13 harg13 hc0 hc1 x0 x1 x2 x3 x4 x5 xt0 xs0 xs1)]
  unfold kernelRun0_C
  dsimp only
  sl_unfold_words
  rw [View.canon_unit_zero hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- k = 7: the down-projection total found, updated. -/
theorem sC1 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : ¬cond0_0 i) (hc1 : cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) (xs0 : Vec F S512x2048 .f32) (xs1 : Vec F S512x16 .f32) :
    sout0_C_1 c i arg5 harg5 arg6 harg6 arg7 harg7 arg8 harg8 arg9 harg9 arg10 harg10 arg11 harg11 arg12 harg12 arg13 harg13 hc0 hc1 x0 x1 x2 x3 x4 x5 xt0 xs0 xs1 = k0_pay1 (k0_pay7 x0 x1 x3) xs1 := by
  unfold sout0_C_1
  rw [View.read_writes_eq_canon _ _ _ (scover0_C_1 c i arg5 harg5 arg6 harg6 arg7 harg7 arg8 harg8 arg9 harg9 arg10 harg10 arg11 harg11 arg12 harg12 arg13 harg13 hc0 hc1 x0 x1 x2 x3 x4 x5 xt0 xs0 xs1)]
  unfold kernelRun0_C
  dsimp only
  sl_unfold_words
  rw [View.canon_unit_zero hz2]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2]

/-- k = 7: the output block, from the two totals as just updated. -/
theorem oC6 (c : Dev nD) (i : grid0.Coords) (arg5 : Memref sig .tc .vmem S1x512x512 .f32) (harg5 : arg5.IsWhole) (arg6 : Memref sig .tc .vmem S1x512x512 .f32) (harg6 : arg6.IsWhole) (arg7 : Memref sig .tc .vmem S512x2048 .bf16) (harg7 : arg7.IsWhole) (arg8 : Memref sig .tc .vmem S1x16x512 .bf16) (harg8 : arg8.IsWhole) (arg9 : Memref sig .tc .vmem S1x2048x16 .bf16) (harg9 : arg9.IsWhole) (arg10 : Memref sig .tc .vmem S2048 .f32) (harg10 : arg10.IsWhole) (arg11 : Memref sig .tc .vmem S1x512x2048 .f32) (harg11 : arg11.IsWhole) (arg12 : Memref sig .tc .vmem S512x2048 .f32) (harg12 : arg12.IsWhole) (arg13 : Memref sig .tc .vmem S512x16 .f32) (harg13 : arg13.IsWhole) (hc0 : ¬cond0_0 i) (hc1 : cond0_1 i)
    (x0 : Vec F S1x512x512 .f32) (x1 : Vec F S1x512x512 .f32) (x2 : Vec F S512x2048 .bf16) (x3 : Vec F S1x16x512 .bf16) (x4 : Vec F S1x2048x16 .bf16) (x5 : Vec F S2048 .f32) (xt0 : TbBuf0 (F := F) c tbM0_0) (xs0 : Vec F S512x2048 .f32) (xs1 : Vec F S512x16 .f32) :
    out0_C_6 c i arg5 harg5 arg6 harg6 arg7 harg7 arg8 harg8 arg9 harg9 arg10 harg10 arg11 harg11 arg12 harg12 arg13 harg13 hc0 hc1 x0 x1 x2 x3 x4 x5 xt0 xs0 xs1 = k0_pay2 x4 (k0_pay1 (k0_pay7 x0 x1 x3) xs1) (k0_pay6 x0 x2 xs0) x5 := by
  unfold out0_C_6
  rw [View.read_writes_eq_canon _ _ _ (cover0_C_6 c i arg5 harg5 arg6 harg6 arg7 harg7 arg8 harg8 arg9 harg9 arg10 harg10 arg11 harg11 arg12 harg12 arg13 harg13 hc0 hc1 x0 x1 x2 x3 x4 x5 xt0 xs0 xs1)]
  unfold kernelRun0_C
  dsimp only
  sl_unfold_words
  rw [View.canon_unit_zero hz3]
  simp only [View.readAt_eq_ld, harg5.read_unread, harg6.read_unread, harg7.read_unread, harg8.read_unread, harg9.read_unread, harg10.read_unread, harg12.read_unread, harg13.read_unread, View.ld_unit_zero (S := S1x512x512) hz3, View.ld_unit_zero (S := S512x2048) hz2, View.ld_unit_zero (S := S1x16x512) hz3, View.ld_unit_zero (S := S1x2048x16) hz3, View.ld_unit_zero (S := S2048) hz1, View.ld_unit_zero (S := S512x16) hz2, View.readCov_unit_zero (S := S512x16) _ hz2, View.readCov_unit_zero (S := S512x2048) _ hz2]

/-! ## Point by point -/

variable (m : (ℓ : Loc nD τ sig) → Buf (Elt F) ℓ)

/-- After a point with k = 0 the base total is zero's update by the point's blocks. -/
theorem stepA0 (hO : Ok m) (c : Dev nD) (t : Fin (cfgM m hO).N) (h0 : t.val % 8 = 0) (h1 : ¬t.val % 8 = 7) :
    (outsAt0 m hO c t.val t.isLt).2.1 = k0_pay6 (iblk m hO c 0 t) (iblk m hO c 2 t) (k0_pay3 (F := F)) := by
  rw [outsAt0_A m hO c t h0 h1]
  dsimp only
  exact sA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)

/-- After a point with k = 0 the down-projection total is zero's update by the point's blocks. -/
theorem stepA1 (hO : Ok m) (c : Dev nD) (t : Fin (cfgM m hO).N) (h0 : t.val % 8 = 0) (h1 : ¬t.val % 8 = 7) :
    (outsAt0 m hO c t.val t.isLt).2.2 = k0_pay1 (k0_pay7 (iblk m hO c 0 t) (iblk m hO c 1 t) (iblk m hO c 3 t)) (k0_pay4 (F := F)) := by
  rw [outsAt0_A m hO c t h0 h1]
  dsimp only
  exact sA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)

/-- After a point with 0 < k < 7 the base total is the update of what the point before left. -/
theorem stepB0 (hO : Ok m) (c : Dev nD) (t : Fin (cfgM m hO).N) (h0 : ¬t.val % 8 = 0) (h1 : ¬t.val % 8 = 7) :
    (outsAt0 m hO c t.val t.isLt).2.1 = k0_pay6 (iblk m hO c 0 t) (iblk m hO c 2 t) (outsAt0 m hO c (t.val - 1) (Nat.lt_of_le_of_lt (Nat.sub_le _ _) t.isLt)).2.1 := by
  rw [outsAt0_B m hO c t h0 h1]
  dsimp only
  exact sB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2

/-- After a point with 0 < k < 7 the down-projection total is the update of what the point before left. -/
theorem stepB1 (hO : Ok m) (c : Dev nD) (t : Fin (cfgM m hO).N) (h0 : ¬t.val % 8 = 0) (h1 : ¬t.val % 8 = 7) :
    (outsAt0 m hO c t.val t.isLt).2.2 = k0_pay1 (k0_pay7 (iblk m hO c 0 t) (iblk m hO c 1 t) (iblk m hO c 3 t)) (outsAt0 m hO c (t.val - 1) (Nat.lt_of_le_of_lt (Nat.sub_le _ _) t.isLt)).2.2 := by
  rw [outsAt0_B m hO c t h0 h1]
  dsimp only
  exact sB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2

/-- After a point with k = 7 the base total is the update of what the point before left. -/
theorem stepC0 (hO : Ok m) (c : Dev nD) (t : Fin (cfgM m hO).N) (h0 : ¬t.val % 8 = 0) (h1 : t.val % 8 = 7) :
    (outsAt0 m hO c t.val t.isLt).2.1 = k0_pay6 (iblk m hO c 0 t) (iblk m hO c 2 t) (outsAt0 m hO c (t.val - 1) (Nat.lt_of_le_of_lt (Nat.sub_le _ _) t.isLt)).2.1 := by
  rw [outsAt0_C m hO c t h0 h1]
  dsimp only
  exact sC0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2

/-- After a point with k = 7 the down-projection total is the update of what the point before left. -/
theorem stepC1 (hO : Ok m) (c : Dev nD) (t : Fin (cfgM m hO).N) (h0 : ¬t.val % 8 = 0) (h1 : t.val % 8 = 7) :
    (outsAt0 m hO c t.val t.isLt).2.2 = k0_pay1 (k0_pay7 (iblk m hO c 0 t) (iblk m hO c 1 t) (iblk m hO c 3 t)) (outsAt0 m hO c (t.val - 1) (Nat.lt_of_le_of_lt (Nat.sub_le _ _) t.isLt)).2.2 := by
  rw [outsAt0_C m hO c t h0 h1]
  dsimp only
  exact sC1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2

/-- At a point with k = 7 the output block is computed from the two totals as that point leaves them. -/
theorem stepC6 (hO : Ok m) (c : Dev nD) (t : Fin (cfgM m hO).N) (h0 : ¬t.val % 8 = 0) (h1 : t.val % 8 = 7) :
    (outsAt0 m hO c t.val t.isLt).1
      = k0_pay2 (iblk m hO c 4 t)
          (k0_pay1 (k0_pay7 (iblk m hO c 0 t) (iblk m hO c 1 t) (iblk m hO c 3 t)) (outsAt0 m hO c (t.val - 1) (Nat.lt_of_le_of_lt (Nat.sub_le _ _) t.isLt)).2.2)
          (k0_pay6 (iblk m hO c 0 t) (iblk m hO c 2 t) (outsAt0 m hO c (t.val - 1) (Nat.lt_of_le_of_lt (Nat.sub_le _ _) t.isLt)).2.1)
          (iblk m hO c 5 t) := by
  rw [outsAt0_C m hO c t h0 h1]
  dsimp only
  exact oC6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2

end Cert.KernelIdeal.LoraPiece

end
-- ==== Proof.KPay.lean ====
/-
  The kernel body's stored values, read at one index over the extended reals.

  Per grid point the body holds an x block X[1,512,512], a dropout-uniform block U of the same shape, a block of the
  transposed base weight Wt[512,2048], a block of the chosen adapter's down matrix A[1,16,512], a block of its up
  matrix B[1,2048,16] and a bias block c[2048].  It keeps two running totals: acc[512,2048] gains
  sum_e X[p,e] * Wt[e,q], and h[512,16] gains sum_e (X[p,e] * keep(U[p,e]) * 2) * A[r,e]; both start from zero.  At the
  last reduction step it writes (acc[p,q] + c[q]) + sum_r h[p,r] * B[q,r].  Changes of float format are the identity
  on extended reals, a matrix product into a zero accumulator is the plain sum of products over the contracted axis,
  and the named reciprocal of the keep probability is the rational the certificate's table gives it.
-/
import proofs.«419449_j63342177681727_3_alg».proof.Proof.Gen.KernelIdeal.Skeleton
import proofs.«419449_j63342177681727_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.LoraPay

open Cert.KernelIdeal Cert.KernelIdeal.Gen Idealize.ShloMosaic Idealize.ShloMosaic.ValueIdx Cert.LoraSpec

/-! ## The three matrix products, at an index -/

abbrev DBase := dot_S512x512_S512x2048_S512x2048_1_0_0_1_n_n
abbrev DDown := dot_S512x512_S16x512_S512x16_1_1_0_0_n_n
abbrev DUp := dot_S512x16_S2048x16_S512x2048_1_1_0_0_n_n

theorem lhs_base_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_base_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_base_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_base_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The base product of a [512,512] block with a [512,2048] block, into zero: row p of the first against column q of
    the second. -/
theorem matmul_base_apply {φ₁ φ₂ : FTy} (l : FVec Ideal S512x512 φ₁) (r : FVec Ideal S512x2048 φ₂) (p : Fin 512) (q : Fin 2048) :
    FloatOps.matmul dot_S512x512_S512x2048_S512x2048_1_0_0_1_n_n none l r (constant S512x2048 .f32 0x00000000#32) (ix2 p q)
      = ∑ e : Fin 512, l (ix2 p e) * r (ix2 e q) := by
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p q) ((ValueIdx.contrEquiv1 dot_S512x512_S512x2048_S512x2048_1_0_0_1_n_n 512 rfl rfl).symm k) = ix2 p k := funext fun a => Fin.ext (by
    match a with
    | ⟨0, _⟩ => exact lhs_base_0 _ _
    | ⟨1, _⟩ => exact (lhs_base_1 _ _).trans hk)
  have er : dot_S512x512_S512x2048_S512x2048_1_0_0_1_n_n.rhsIdx (ix2 p q) ((ValueIdx.contrEquiv1 dot_S512x512_S512x2048_S512x2048_1_0_0_1_n_n 512 rfl rfl).symm k) = ix2 k q := funext fun a => Fin.ext (by
    match a with
    | ⟨0, _⟩ => exact (rhs_base_0 _ _).trans hk
    | ⟨1, _⟩ => exact rhs_base_1 _ _)
  rw [el, er]

theorem lhs_down_0 (i : S512x16.Idx) (q : dot_S512x512_S16x512_S512x16_1_1_0_0_n_n.contr.Idx) :
    (dot_S512x512_S16x512_S512x16_1_1_0_0_n_n.lhsIdx i q 0).val = (i 0).val := by
  unfold DotDims.lhsIdx
  rw [dif_neg (show ¬(0 : Fin S512x512.rank) ∈ dot_S512x512_S16x512_S512x16_1_1_0_0_n_n.lhsBatch by decide), dif_pos (show (0 : Fin S512x512.rank) ∈ dot_S512x512_S16x512_S512x16_1_1_0_0_n_n.lhsNonContracting by decide)]
  rfl
theorem lhs_down_1 (i : S512x16.Idx) (q : dot_S512x512_S16x512_S512x16_1_1_0_0_n_n.contr.Idx) :
    (dot_S512x512_S16x512_S512x16_1_1_0_0_n_n.lhsIdx i q 1).val = (q ⟨0, by decide⟩).val :=
  dot_S512x512_S16x512_S512x16_1_1_0_0_n_n.lhsIdx_val_of_single rfl i q
theorem rhs_down_0 (i : S512x16.Idx) (q : dot_S512x512_S16x512_S512x16_1_1_0_0_n_n.contr.Idx) :
    (dot_S512x512_S16x512_S512x16_1_1_0_0_n_n.rhsIdx i q 0).val = (i 1).val := by
  unfold DotDims.rhsIdx
  rw [dif_neg (show ¬(0 : Fin S16x512.rank) ∈ dot_S512x512_S16x512_S512x16_1_1_0_0_n_n.rhsBatch by decide), dif_pos (show (0 : Fin S16x512.rank) ∈ dot_S512x512_S16x512_S512x16_1_1_0_0_n_n.rhsNonContracting by decide)]
  rfl
theorem rhs_down_1 (i : S512x16.Idx) (q : dot_S512x512_S16x512_S512x16_1_1_0_0_n_n.contr.Idx) :
    (dot_S512x512_S16x512_S512x16_1_1_0_0_n_n.rhsIdx i q 1).val = (q ⟨0, by decide⟩).val :=
  dot_S512x512_S16x512_S512x16_1_1_0_0_n_n.rhsIdx_val_of_single rfl i q

/-- The down-projection of a [512,512] block against a [16,512] block, into zero: row p against row r. -/
theorem matmul_down_apply {φ₁ φ₂ : FTy} (l : FVec Ideal S512x512 φ₁) (r : FVec Ideal S16x512 φ₂) (p : Fin 512) (j : Fin 16) :
    FloatOps.matmul dot_S512x512_S16x512_S512x16_1_1_0_0_n_n none l r (constant S512x16 .f32 0x00000000#32) (ix2 p j)
      = ∑ e : Fin 512, l (ix2 p e) * r (ix2 j e) := by
  rw [Ideal.matmul_constant_zero_apply, ← Equiv.sum_comp (ValueIdx.contrEquiv1 dot_S512x512_S16x512_S512x16_1_1_0_0_n_n 512 rfl rfl).symm]
  refine Finset.sum_congr rfl fun k _ => ?_
  have hk := ValueIdx.contrEquiv1_symm_val dot_S512x512_S16x512_S512x16_1_1_0_0_n_n 512 rfl rfl k
  have el : dot_S512x512_S16x512_S512x16_1_1_0_0_n_n.lhsIdx (ix2 p j) ((ValueIdx.contrEquiv1 dot_S512x512_S16x512_S512x16_1_1_0_0_n_n 512 rfl rfl).symm k) = ix2 p k := funext fun a => Fin.ext (by
    match a with
    | ⟨0, _⟩ => exact lhs_down_0 _ _
    | ⟨1, _⟩ => exact (lhs_down_1 _ _).trans hk)
  have er : dot_S512x512_S16x512_S512x16_1_1_0_0_n_n.rhsIdx (ix2 p j) ((ValueIdx.contrEquiv1 dot_S512x512_S16x512_S512x16_1_1_0_0_n_n 512 rfl rfl).symm k) = ix2 j k := funext fun a => Fin.ext (by
    match a with
    | ⟨0, _⟩ => exact rhs_down_0 _ _
    | ⟨1, _⟩ => exact (rhs_down_1 _ _).trans hk)
  rw [el, er]

theorem lhs_up_0 (i : S512x2048.Idx) (q : dot_S512x16_S2048x16_S512x2048_1_1_0_0_n_n.contr.Idx) :
    (dot_S512x16_S2048x16_S512x2048_1_1_0_0_n_n.lhsIdx i q 0).val = (i 0).val := by
  unfold DotDims.lhsIdx
  rw [dif_neg (show ¬(0 : Fin S512x16.rank) ∈ dot_S512x16_S2048x16_S512x2048_1_1_0_0_n_n.lhsBatch by decide), dif_pos (show (0 : Fin S512x16.rank) ∈ dot_S512x16_S2048x16_S512x2048_1_1_0_0_n_n.lhsNonContracting by decide)]
  rfl
theorem lhs_up_1 (i : S512x2048.Idx) (q : dot_S512x16_S2048x16_S512x2048_1_1_0_0_n_n.contr.Idx) :
    (dot_S512x16_S2048x16_S512x2048_1_1_0_0_n_n.lhsIdx i q 1).val = (q ⟨0, by decide⟩).val :=
  dot_S512x16_S2048x16_S512x2048_1_1_0_0_n_n.lhsIdx_val_of_single rfl i q
theorem rhs_up_0 (i : S512x2048.Idx) (q : dot_S512x16_S2048x16_S512x2048_1_1_0_0_n_n.contr.Idx) :
    (dot_S512x16_S2048x16_S512x2048_1_1_0_0_n_n.rhsIdx i q 0).val = (i 1).val := by
  unfold DotDims.rhsIdx
  rw [dif_neg (show ¬(0 : Fin S2048x16.rank) ∈ dot_S512x16_S2048x16_S512x2048_1_1_0_0_n_n.rhsBatch by decide), dif_pos (show (0 : Fin S2048x16.rank) ∈ dot_S512x16_S2048x16_S512x2048_1_1_0_0_n_n.rhsNonContracting by decide)]
  rfl
theorem rhs_up_1 (i : S512x2048.Idx) (q : dot_S512x16_S2048x16_S512x2048_1_1_0_0_n_n.contr.Idx) :
    (dot_S512x16_S2048x16_S512x2048_1_1_0_0_n_n.rhsIdx i q 1).val = (q ⟨0, by decide⟩).val :=
  dot_S512x16_S2048x16_S512x2048_1_1_0_0_n_n.rhsIdx_val_of_single rfl i q

/-- The up-projection of a [512,16] block against a [2048,16] block, into zero: row p against row q. -/
theorem matmul_up_apply {φ₁ φ₂ : FTy} (l : FVec Ideal S512x16 φ₁) (r : FVec Ideal S2048x16 φ₂) (p : Fin 512) (q : Fin 2048) :
    FloatOps.matmul dot_S512x16_S2048x16_S512x2048_1_1_0_0_n_n none l r (constant S512x2048 .f32 0x00000000#32) (ix2 p q)
      = ∑ j : Fin 16, l (ix2 p j) * r (ix2 q j) := by
  rw [Ideal.matmul_constant_zero_apply, ← Equiv.sum_comp (ValueIdx.contrEquiv1 dot_S512x16_S2048x16_S512x2048_1_1_0_0_n_n 16 rfl rfl).symm]
  refine Finset.sum_congr rfl fun k _ => ?_
  have hk := ValueIdx.contrEquiv1_symm_val dot_S512x16_S2048x16_S512x2048_1_1_0_0_n_n 16 rfl rfl k
  have el : dot_S512x16_S2048x16_S512x2048_1_1_0_0_n_n.lhsIdx (ix2 p q) ((ValueIdx.contrEquiv1 dot_S512x16_S2048x16_S512x2048_1_1_0_0_n_n 16 rfl rfl).symm k) = ix2 p k := funext fun a => Fin.ext (by
    match a with
    | ⟨0, _⟩ => exact lhs_up_0 _ _
    | ⟨1, _⟩ => exact (lhs_up_1 _ _).trans hk)
  have er : dot_S512x16_S2048x16_S512x2048_1_1_0_0_n_n.rhsIdx (ix2 p q) ((ValueIdx.contrEquiv1 dot_S512x16_S2048x16_S512x2048_1_1_0_0_n_n 16 rfl rfl).symm k) = ix2 q k := funext fun a => Fin.ext (by
    match a with
    | ⟨0, _⟩ => exact rhs_up_0 _ _
    | ⟨1, _⟩ => exact (rhs_up_1 _ _).trans hk)
  rw [el, er]

/-! ## The named reciprocal -/

/-- The kernel's named constant is the reciprocal of the keep probability, by the certificate's table. -/
theorem named_invKeep : Named.named (F := Ideal) Cert.KernelIdeal.κ "inv_keep_prob" (φ := .f32) 0x3F86BCA2#32 = invKeep :=
  IdealRules.named_const.ideal_named_scalar _ _ _ _ rfl

/-! ## The payloads -/

/-- The reset of the base total: zero. -/
theorem pay3_apply (j : S512x2048.Idx) : k0_pay3 (F := Ideal) j = 0 := by
  unfold k0_pay3
  rw [shapeCast_self]
  exact Ideal.ofBits_zero_f32

/-- The reset of the down-projection total: zero. -/
theorem pay4_apply (j : S512x16.Idx) : k0_pay4 (F := Ideal) j = 0 := by
  unfold k0_pay4
  rw [shapeCast_self]
  exact Ideal.ofBits_zero_f32

/-- The base total's update: what it held plus the block product. -/
theorem pay6_apply (v3 : FVec Ideal S1x512x512 .f32) (v7 : FVec Ideal S512x2048 .bf16) (v23 : FVec Ideal S512x2048 .f32)
    (p : Fin 512) (q : Fin 2048) :
    k0_pay6 (F := Ideal) v3 v7 v23 (ix2 p q) = v23 (ix2 p q) + ∑ e : Fin 512, v3 (ix3 (0 : Fin 1) p e) * v7 (ix2 e q) := by
  unfold k0_pay6 k0_pay5
  rw [shapeCast_self, shapeCast_self]
  refine (addf_apply _ _ _).trans ?_
  refine congrArg (v23 (ix2 p q) + ·) ?_
  refine (matmul_base_apply (φ₁ := .bf16) (φ₂ := .bf16) _ v7 p q).trans ?_
  refine Finset.sum_congr rfl fun e _ => ?_
  refine congrArg (· * v7 (ix2 e q)) ?_
  exact shapeCast_1ab_ab_apply v3 _ p e

/-- The down-projection's block term: the dropped-out, scaled x block against the adapter's down block. -/
theorem pay7_apply (v3 v5 : FVec Ideal S1x512x512 .f32) (v9 : FVec Ideal S1x16x512 .bf16) (p : Fin 512) (j : Fin 16) :
    k0_pay7 (F := Ideal) v3 v5 v9 (ix2 p j)
      = ∑ e : Fin 512, (v3 (ix3 (0 : Fin 1) p e) * keep (v5 (ix3 (0 : Fin 1) p e)) * two) * v9 (ix3 (0 : Fin 1) j e) := by
  unfold k0_pay7 k0_pay5
  refine (matmul_down_apply (φ₁ := .bf16) (φ₂ := .bf16) _ _ p j).trans ?_
  refine Finset.sum_congr rfl fun e _ => ?_
  have hr : shapeCast S16x512 v9 shapeCasts_S1x16x512_S16x512 (ix2 j e) = v9 (ix3 (0 : Fin 1) j e) :=
    shapeCast_1ab_ab_apply v9 _ j e
  have hx : shapeCast S512x512 v3 shapeCasts_S1x512x512_S512x512 (ix2 p e) = v3 (ix3 (0 : Fin 1) p e) :=
    shapeCast_1ab_ab_apply v3 _ p e
  have hu : shapeCast S512x512 v5 shapeCasts_S1x512x512_S512x512 (ix2 p e) = v5 (ix3 (0 : Fin 1) p e) :=
    shapeCast_1ab_ab_apply v5 _ p e
  show ((shapeCast S512x512 v3 shapeCasts_S1x512x512_S512x512 (ix2 p e)
        * (((((Ideal.cmp .oge (shapeCast S512x512 v5 shapeCasts_S1x512x512_S512x512 (ix2 p e)) thr).setWidth 32).toInt : ℝ) : EReal)
          * Named.named (F := Ideal) Cert.KernelIdeal.κ "inv_keep_prob" (φ := .f32) 0x3F86BCA2#32))
        * two)
      * shapeCast S16x512 v9 shapeCasts_S1x16x512_S16x512 (ix2 j e)
    = (v3 (ix3 (0 : Fin 1) p e) * keep (v5 (ix3 (0 : Fin 1) p e)) * two) * v9 (ix3 (0 : Fin 1) j e)
  rw [hr, hx, hu, named_invKeep, keep_of_mask_mul]

/-- The down-projection total's update: what it held plus the block term. -/
theorem pay1_apply (v28 : FVec Ideal S512x16 .f32) (v29 : FVec Ideal S512x16 .f32) (j : S512x16.Idx) :
    k0_pay1 (F := Ideal) v28 v29 j = v29 j + v28 j := by
  unfold k0_pay1
  rw [shapeCast_self]
  rfl

/-- The output block: the base total plus the bias row, plus the down-projection total against the up block. -/
theorem pay2_apply (v37 : FVec Ideal S1x2048x16 .bf16) (v39 : FVec Ideal S512x16 .f32) (v42 : FVec Ideal S512x2048 .f32)
    (v43 : FVec Ideal S2048 .f32) (u : Fin 1) (p : Fin 512) (q : Fin 2048) :
    k0_pay2 (F := Ideal) v37 v39 v42 v43 (ix3 u p q)
      = (v42 (ix2 p q) + v43 (ix1 q)) + ∑ j : Fin 16, v39 (ix2 p j) * v37 (ix3 (0 : Fin 1) q j) := by
  unfold k0_pay2
  refine (shapeCast_ab_1ab_apply _ _ u p q).trans ?_
  refine (addf_apply _ _ _).trans ?_
  refine congrArg₂ (· + ·) ?_ ?_
  · refine (addf_apply _ _ _).trans ?_
    refine congrArg (v42 (ix2 p q) + ·) ?_
    refine (broadcastTo_1b_ab_apply _ _ p q).trans ?_
    exact shapeCast_a_1a_apply v43 _ _ q
  · refine (matmul_up_apply (φ₁ := .bf16) (φ₂ := .bf16) _ _ p q).trans ?_
    refine Finset.sum_congr rfl fun j _ => ?_
    exact congrArg (v39 (ix2 p j) * ·) (shapeCast_1ab_ab_apply v37 _ q j)

end Cert.KernelIdeal.LoraPay

end
-- ==== Proof.KBlocks.lean ====
/-
  The kernel's input blocks, read at an index.

  The grid has 8 * 4 * 2 * 8 = 512 points; point number n has batch row b = n / 64, sequence tile s = n / 16 mod 4,
  output tile o = n / 8 mod 2 and reduction step k = n mod 8.  A block read is the array at (block index * block size
  + coordinate inside the block) on every axis, so

    the x block and the dropout-uniform block at (0, p, e) are the arrays at (b, 512 s + p, 512 k + e);
    the block of the transposed base weight at (e, q) is the transposed matrix at (512 k + e, 2048 o + q), that is W at
      (2048 o + q, 512 k + e): a transposed matrix read at (j, i) is the matrix at (i, j), and a change of float format
      is the identity on extended reals;
    the bias block at q is the bias at 2048 o + q;
    the block of the down matrices at (0, r, e) is A at (a_b, r, 512 k + e) and the block of the up matrices at
      (0, q, r) is Bw at (a_b, 2048 o + q, r), where the leading block index is the word the index map reads from the
      table of clipped adapter ids at row b; that word is the id clipped into [0, 3] by a signed maximum with 0 and a
      signed minimum with 3, and on an id that is non-negative as a signed integer it is the unsigned id capped at 3.

  The relations between the printed index maps and the point number are decided once over the 512 points; every fact
  about a window whose index map reads the table is proved with the table's contents a variable.
-/
import proofs.«419449_j63342177681727_3_alg».proof.Proof.Gen.KernelIdeal.Frame.Runs
import proofs.«419449_j63342177681727_3_alg».proof.Proof.Spec
import proofs.«419449_j63342177681727_3_alg».proof.Proof.Words
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.LoraBlocks

open Cert.KernelIdeal Cert.KernelIdeal.Gen Idealize.ShloMosaic Idealize.ShloMosaic.TcCoe Idealize.ShloMosaic.ValueIdx Idealize.SL.Sem Cert.LoraSpec

variable (m : (ℓ : Loc nD τ sig) → Buf (Elt Ideal) ℓ)

/-! ## The grid point's coordinates, and rows and columns of a tile -/

/-- The coordinates of grid point number n. -/
def bOf (n : ℕ) : Fin 8 := ⟨n / 64 % 8, Nat.mod_lt _ (by decide)⟩
def sOf (n : ℕ) : Fin 4 := ⟨n / 16 % 4, Nat.mod_lt _ (by decide)⟩
def oOf (n : ℕ) : Fin 2 := ⟨n / 8 % 2, Nat.mod_lt _ (by decide)⟩
def kOf (n : ℕ) : Fin 8 := ⟨n % 8, Nat.mod_lt _ (by decide)⟩
/-- Row p of sequence tile s; column q of output tile o. -/
def row (s : Fin 4) (p : Fin 512) : Fin 2048 := ⟨512 * s.val + p.val, by omega⟩
def col (o : Fin 2) (q : Fin 2048) : Fin 4096 := ⟨2048 * o.val + q.val, by omega⟩

/-! ## The argument arrays -/

/-- The argument arrays of the launch memory, by literal type. -/
abbrev argX (c : Dev nD) : SX.Idx → EReal := m ((c : Thread nD τ).loc main_arg0)
abbrev argW (c : Dev nD) : SW.Idx → EReal := m ((c : Thread nD τ).loc main_arg1)
abbrev argBias (c : Dev nD) : SB.Idx → EReal := m ((c : Thread nD τ).loc main_arg2)
abbrev argA (c : Dev nD) : SA.Idx → EReal := m ((c : Thread nD τ).loc main_arg3)
abbrev argBw (c : Dev nD) : SBw.Idx → EReal := m ((c : Thread nD τ).loc main_arg4)
abbrev argU (c : Dev nD) : SX.Idx → EReal := m ((c : Thread nD τ).loc main_arg5)
abbrev argIds (c : Dev nD) : SId.Idx → BitVec 32 := m ((c : Thread nD τ).loc main_arg6)

/-! ## The index maps over the grid -/

set_option maxHeartbeats 400000 in
/-- The printed index maps that read no table, and the grid coordinates the others use, as functions of the point
    number: decided over the 512 points. -/
theorem idx_facts : ∀ t : Fin grid0.N,
    cc0_transform_0 (grid0.coords t) (0 : Fin 3) = t.val / 64
    ∧ cc0_transform_0 (grid0.coords t) (1 : Fin 3) = t.val / 16 % 4
    ∧ cc0_transform_0 (grid0.coords t) (2 : Fin 3) = t.val % 8
    ∧ cc0_transform_1 (grid0.coords t) (0 : Fin 3) = t.val / 64
    ∧ cc0_transform_1 (grid0.coords t) (1 : Fin 3) = t.val / 16 % 4
    ∧ cc0_transform_1 (grid0.coords t) (2 : Fin 3) = t.val % 8
    ∧ cc0_transform_2 (grid0.coords t) (0 : Fin 2) = t.val % 8
    ∧ cc0_transform_2 (grid0.coords t) (1 : Fin 2) = t.val / 8 % 2
    ∧ cc0_transform_5 (grid0.coords t) (0 : Fin 1) = t.val / 8 % 2
    ∧ (grid0.coords t 0).val = t.val / 64
    ∧ (BitVec.ofNat 32 (grid0.coords t 2).val).toNat = t.val / 8 % 2
    ∧ (BitVec.ofNat 32 (grid0.coords t 3).val).toNat = t.val % 8 := by
  decide +kernel

/-- The word the index maps of the two adapter windows read from the table at grid coordinates i. -/
def tword (pf : pre0.Contents (Elt Ideal)) (i : grid0.Coords) : BitVec 32 :=
  pf.at 0 (Rect.unit (s := S8) ![(Scalar.indexCast (BitVec.ofNat 32 (i 0).val)).toNat] S1.size (k0_off1_inb i)) numel1_S1

set_option maxHeartbeats 400000 in
/-- That word is the table's entry at the batch row. -/
theorem tword_eq (pf : pre0.Contents (Elt Ideal)) (i : grid0.Coords) (b : Fin 8) (hb : (i 0).val = b.val) :
    tword pf i = pf 0 (ix1 b) := by
  have hv : (Scalar.indexCast (BitVec.ofNat 32 (i 0).val)).toNat = (i 0).val := congrFun (k0_off1_eq i) 0
  unfold tword
  show pf 0 _ = pf 0 _
  refine congrArg (pf 0) (funext fun d => Fin.ext ?_)
  match d with
  | ⟨0, _⟩ =>
    show (Scalar.indexCast (BitVec.ofNat 32 (i 0).val)).toNat + 1 * 0 = b.val
    omega

/-! ## Where a block's index lies in its array -/

set_option maxHeartbeats 400000 in
/-- The x block at (z, p, e) lies at (b, 512 s + p, 512 k + e). -/
theorem emb_x (a : (pcfg0 (F := Ideal)).Adm) (t : Fin (cfg0 a).N) (z : Fin 1) (p e : Fin 512) :
    ((((cfg0 a).win 0).blk t).view.emb (ix3 z p e) : S8x2048x4096.Idx)
      = ix3 (bOf t.val) (row (sOf t.val) p) (feat (kOf t.val) e) := by
  have hN : t.val < 512 := lt_of_lt_of_eq t.isLt (show (cfg0 a).N = 512 from N_0)
  obtain ⟨h0, h1, h2, -⟩ := idx_facts t
  refine funext fun d => Fin.ext ?_
  match d with
  | ⟨0, _⟩ =>
    show cc0_transform_0 (grid0.coords t) (0 : Fin 3) * 1 + 1 * z.val = t.val / 64 % 8
    rw [h0]; omega
  | ⟨1, _⟩ =>
    show cc0_transform_0 (grid0.coords t) (1 : Fin 3) * 512 + 1 * p.val = 512 * (t.val / 16 % 4) + p.val
    rw [h1]; omega
  | ⟨2, _⟩ =>
    show cc0_transform_0 (grid0.coords t) (2 : Fin 3) * 512 + 1 * e.val = 512 * (t.val % 8) + e.val
    rw [h2]; omega

set_option maxHeartbeats 400000 in
/-- The dropout-uniform block at (z, p, e) lies at (b, 512 s + p, 512 k + e). -/
theorem emb_u (a : (pcfg0 (F := Ideal)).Adm) (t : Fin (cfg0 a).N) (z : Fin 1) (p e : Fin 512) :
    ((((cfg0 a).win 1).blk t).view.emb (ix3 z p e) : S8x2048x4096.Idx)
      = ix3 (bOf t.val) (row (sOf t.val) p) (feat (kOf t.val) e) := by
  have hN : t.val < 512 := lt_of_lt_of_eq t.isLt (show (cfg0 a).N = 512 from N_0)
  obtain ⟨-, -, -, h0, h1, h2, -⟩ := idx_facts t
  refine funext fun d => Fin.ext ?_
  match d with
  | ⟨0, _⟩ =>
    show cc0_transform_1 (grid0.coords t) (0 : Fin 3) * 1 + 1 * z.val = t.val / 64 % 8
    rw [h0]; omega
  | ⟨1, _⟩ =>
    show cc0_transform_1 (grid0.coords t) (1 : Fin 3) * 512 + 1 * p.val = 512 * (t.val / 16 % 4) + p.val
    rw [h1]; omega
  | ⟨2, _⟩ =>
    show cc0_transform_1 (grid0.coords t) (2 : Fin 3) * 512 + 1 * e.val = 512 * (t.val % 8) + e.val
    rw [h2]; omega

set_option maxHeartbeats 400000 in
/-- The block of the transposed base weight at (e, q) lies at (512 k + e, 2048 o + q). -/
theorem emb_w (a : (pcfg0 (F := Ideal)).Adm) (t : Fin (cfg0 a).N) (e : Fin 512) (q : Fin 2048) :
    ((((cfg0 a).win 2).blk t).view.emb (ix2 e q) : S4096x4096.Idx)
      = ix2 (feat (kOf t.val) e) (col (oOf t.val) q) := by
  have hN : t.val < 512 := lt_of_lt_of_eq t.isLt (show (cfg0 a).N = 512 from N_0)
  obtain ⟨-, -, -, -, -, -, h0, h1, -⟩ := idx_facts t
  refine funext fun d => Fin.ext ?_
  match d with
  | ⟨0, _⟩ =>
    show cc0_transform_2 (grid0.coords t) (0 : Fin 2) * 512 + 1 * e.val = 512 * (t.val % 8) + e.val
    rw [h0]; omega
  | ⟨1, _⟩ =>
    show cc0_transform_2 (grid0.coords t) (1 : Fin 2) * 2048 + 1 * q.val = 2048 * (t.val / 8 % 2) + q.val
    rw [h1]; omega

set_option maxHeartbeats 400000 in
/-- The bias block at q lies at 2048 o + q. -/
theorem emb_bias (a : (pcfg0 (F := Ideal)).Adm) (t : Fin (cfg0 a).N) (q : Fin 2048) :
    ((((cfg0 a).win 5).blk t).view.emb (ix1 q) : S4096.Idx) = ix1 (col (oOf t.val) q) := by
  have hN : t.val < 512 := lt_of_lt_of_eq t.isLt (show (cfg0 a).N = 512 from N_0)
  obtain ⟨-, -, -, -, -, -, -, -, h0, -⟩ := idx_facts t
  refine funext fun d => Fin.ext ?_
  match d with
  | ⟨0, _⟩ =>
    show cc0_transform_5 (grid0.coords t) (0 : Fin 1) * 2048 + 1 * q.val = 2048 * (t.val / 8 % 2) + q.val
    rw [h0]; omega

set_option maxHeartbeats 400000 in
/-- The block of the down matrices at (z, r, e) lies at (n, r, 512 k + e), n the table's word at row b. -/
theorem emb_a (a : (pcfg0 (F := Ideal)).Adm) (t : Fin (cfg0 a).N) (n : Fin 4)
    (hn : BitVec.toNat (a.1 0 (ix1 (bOf t.val))) = n.val) (z : Fin 1) (r : Fin 16) (e : Fin 512) :
    ((((cfg0 a).win 3).blk t).view.emb (ix3 z r e) : S4x16x4096.Idx) = ix3 n r (feat (kOf t.val) e) := by
  have hN : t.val < 512 := lt_of_lt_of_eq t.isLt (show (cfg0 a).N = 512 from N_0)
  obtain ⟨-, -, -, -, -, -, -, -, -, g0, g2, g3⟩ := idx_facts t
  have hb : (grid0.coords t 0).val = (bOf t.val).val := by
    rw [g0]; show t.val / 64 = t.val / 64 % 8; omega
  have z0 : (0#32 : BitVec 32).toNat = 0 := by decide
  refine funext fun d => Fin.ext ?_
  match d with
  | ⟨0, _⟩ =>
    show (tword a.1 (grid0.coords t)).toNat * 1 + 1 * z.val = n.val
    rw [tword_eq a.1 (grid0.coords t) (bOf t.val) hb]; omega
  | ⟨1, _⟩ =>
    show (0#32 : BitVec 32).toNat * 16 + 1 * r.val = r.val
    rw [z0]; omega
  | ⟨2, _⟩ =>
    show (BitVec.ofNat 32 (grid0.coords t 3).val).toNat * 512 + 1 * e.val = 512 * (t.val % 8) + e.val
    rw [g3]; omega

set_option maxHeartbeats 400000 in
/-- The block of the up matrices at (z, q, r) lies at (n, 2048 o + q, r), n the table's word at row b. -/
theorem emb_bw (a : (pcfg0 (F := Ideal)).Adm) (t : Fin (cfg0 a).N) (n : Fin 4)
    (hn : BitVec.toNat (a.1 0 (ix1 (bOf t.val))) = n.val) (z : Fin 1) (q : Fin 2048) (r : Fin 16) :
    ((((cfg0 a).win 4).blk t).view.emb (ix3 z q r) : S4x4096x16.Idx) = ix3 n (col (oOf t.val) q) r := by
  have hN : t.val < 512 := lt_of_lt_of_eq t.isLt (show (cfg0 a).N = 512 from N_0)
  obtain ⟨-, -, -, -, -, -, -, -, -, g0, g2, g3⟩ := idx_facts t
  have hb : (grid0.coords t 0).val = (bOf t.val).val := by
    rw [g0]; show t.val / 64 = t.val / 64 % 8; omega
  have z0 : (0#32 : BitVec 32).toNat = 0 := by decide
  refine funext fun d => Fin.ext ?_
  match d with
  | ⟨0, _⟩ =>
    show (tword a.1 (grid0.coords t)).toNat * 1 + 1 * z.val = n.val
    rw [tword_eq a.1 (grid0.coords t) (bOf t.val) hb]; omega
  | ⟨1, _⟩ =>
    show (BitVec.ofNat 32 (grid0.coords t 2).val).toNat * 2048 + 1 * q.val = 2048 * (t.val / 8 % 2) + q.val
    rw [g2]; omega
  | ⟨2, _⟩ =>
    show (0#32 : BitVec 32).toNat * 16 + 1 * r.val = r.val
    rw [z0]; omega

/-! ## A block read through its window is the array at that index -/

set_option maxHeartbeats 400000 in
theorem read_x (a : (pcfg0 (F := Ideal)).Adm) (t : Fin (cfg0 a).N) (A : S8x2048x4096.Idx → EReal) (z : Fin 1) (p e : Fin 512) :
    (((cfg0 a).win 0).blk t).view.read (Elt Ideal) A (ix3 z p e)
      = A (ix3 (bOf t.val) (row (sOf t.val) p) (feat (kOf t.val) e)) := by
  show A ((((cfg0 a).win 0).blk t).view.emb (ix3 z p e)) = _
  exact congrArg A (emb_x a t z p e)

set_option maxHeartbeats 400000 in
theorem read_u (a : (pcfg0 (F := Ideal)).Adm) (t : Fin (cfg0 a).N) (A : S8x2048x4096.Idx → EReal) (z : Fin 1) (p e : Fin 512) :
    (((cfg0 a).win 1).blk t).view.read (Elt Ideal) A (ix3 z p e)
      = A (ix3 (bOf t.val) (row (sOf t.val) p) (feat (kOf t.val) e)) := by
  show A ((((cfg0 a).win 1).blk t).view.emb (ix3 z p e)) = _
  exact congrArg A (emb_u a t z p e)

set_option maxHeartbeats 400000 in
theorem read_w (a : (pcfg0 (F := Ideal)).Adm) (t : Fin (cfg0 a).N) (A : S4096x4096.Idx → EReal) (e : Fin 512) (q : Fin 2048) :
    (((cfg0 a).win 2).blk t).view.read (Elt Ideal) A (ix2 e q)
      = A (ix2 (feat (kOf t.val) e) (col (oOf t.val) q)) := by
  show A ((((cfg0 a).win 2).blk t).view.emb (ix2 e q)) = _
  exact congrArg A (emb_w a t e q)

set_option maxHeartbeats 400000 in
theorem read_bias (a : (pcfg0 (F := Ideal)).Adm) (t : Fin (cfg0 a).N) (A : S4096.Idx → EReal) (q : Fin 2048) :
    (((cfg0 a).win 5).blk t).view.read (Elt Ideal) A (ix1 q) = A (ix1 (col (oOf t.val) q)) := by
  show A ((((cfg0 a).win 5).blk t).view.emb (ix1 q)) = _
  exact congrArg A (emb_bias a t q)

set_option maxHeartbeats 400000 in
theorem read_a (a : (pcfg0 (F := Ideal)).Adm) (t : Fin (cfg0 a).N) (n : Fin 4)
    (hn : BitVec.toNat (a.1 0 (ix1 (bOf t.val))) = n.val) (A : S4x16x4096.Idx → EReal) (z : Fin 1) (r : Fin 16) (e : Fin 512) :
    (((cfg0 a).win 3).blk t).view.read (Elt Ideal) A (ix3 z r e) = A (ix3 n r (feat (kOf t.val) e)) := by
  show A ((((cfg0 a).win 3).blk t).view.emb (ix3 z r e)) = _
  exact congrArg A (emb_a a t n hn z r e)

set_option maxHeartbeats 400000 in
theorem read_bw (a : (pcfg0 (F := Ideal)).Adm) (t : Fin (cfg0 a).N) (n : Fin 4)
    (hn : BitVec.toNat (a.1 0 (ix1 (bOf t.val))) = n.val) (A : S4x4096x16.Idx → EReal) (z : Fin 1) (q : Fin 2048) (r : Fin 16) :
    (((cfg0 a).win 4).blk t).view.read (Elt Ideal) A (ix3 z q r) = A (ix3 n (col (oOf t.val) q) r) := by
  show A ((((cfg0 a).win 4).blk t).view.emb (ix3 z q r)) = _
  exact congrArg A (emb_bw a t n hn z q r)

/-! ## The arrays the host prepares before the launch -/

set_option maxHeartbeats 400000 in
/-- The base weight's window reads W transposed (the change of float format is the identity): at (j, i) it is W at
    (i, j). -/
theorem V_v2_apply (c : Dev nD) (j i : Fin 4096) : V m c main_v2 (ix2 j i) = argW m c (ix2 i j) := by
  have e : (V m c main_v2 : S4096x4096.Idx → EReal)
      = truncf (F := Ideal) .bf16 (transpose S4096x4096 [1, 0] (argW m c) transposes_S4096x4096_S4096x4096_1_0) bitsLt_bf16_f32 := by
    dsimp only [Gen.V]
    simp only [hostOps0, hostOps0_1, hostOps0_2, List.flatten_cons, List.flatten_nil, List.append_nil, List.cons_append,
      List.nil_append]
    after_results
    all_goals rfl
  exact (congrFun e (ix2 j i)).trans
    ((truncf_apply (transpose S4096x4096 [1, 0] (argW m c) transposes_S4096x4096_S4096x4096_1_0) bitsLt_bf16_f32 (ix2 j i)).trans
      (transpose_ix2_apply (argW m c) transposes_S4096x4096_S4096x4096_1_0 j i))

set_option maxHeartbeats 400000 in
/-- The down matrices' window reads A (the change of float format is the identity). -/
theorem V_v4_apply (c : Dev nD) (j : S4x16x4096.Idx) : V m c main_v4 j = argA m c j := by
  have e : (V m c main_v4 : S4x16x4096.Idx → EReal) = truncf (F := Ideal) .bf16 (argA m c) bitsLt_bf16_f32 := by
    dsimp only [Gen.V]
    simp only [hostOps0, hostOps0_1, hostOps0_2, List.flatten_cons, List.flatten_nil, List.append_nil, List.cons_append,
      List.nil_append]
    after_results
    all_goals rfl
  exact (congrFun e j).trans (truncf_apply (argA m c) bitsLt_bf16_f32 j)

set_option maxHeartbeats 400000 in
/-- The up matrices' window reads Bw (the change of float format is the identity). -/
theorem V_v3_apply (c : Dev nD) (j : S4x4096x16.Idx) : V m c main_v3 j = argBw m c j := by
  have e : (V m c main_v3 : S4x4096x16.Idx → EReal) = truncf (F := Ideal) .bf16 (argBw m c) bitsLt_bf16_f32 := by
    dsimp only [Gen.V]
    simp only [hostOps0, hostOps0_1, hostOps0_2, List.flatten_cons, List.flatten_nil, List.append_nil, List.cons_append,
      List.nil_append]
    after_results
    all_goals rfl
  exact (congrFun e j).trans (truncf_apply (argBw m c) bitsLt_bf16_f32 j)

set_option maxHeartbeats 400000 in
/-- The table is the adapter ids clipped into [0, 3]: a signed maximum with 0, then a signed minimum with 3. -/
theorem tbl_clip (x : S8.Idx) :
    tbl m 0 x = Cert.LoraWords.clip (m (((0 : Dev nD) : Thread nD τ).loc main_arg6) x) := by
  show V m (0 : Dev nD) main_v0 x = _
  dsimp only [Gen.V]
  simp only [hostOps0, hostOps0_1, hostOps0_2, List.flatten_cons, List.flatten_nil, List.append_nil, List.cons_append,
    List.nil_append]
  after_results
  try simp only [StableHlo.TRef.ofBuf, StableHlo.TRef.toBuf, cast_eq]
  all_goals rfl

/-! ## The six input blocks -/

section Blocks

variable (hO : Ok m) (c : Dev nD) (t : Fin (cfgM m hO).N)

set_option maxHeartbeats 400000 in
/-- The x block at (0, p, e) is x at (b, 512 s + p, 512 k + e). -/
theorem blk_x (p e : Fin 512) :
    iblk m hO c 0 t (ix3 (0 : Fin 1) p e) = argX m c (ix3 (bOf t.val) (row (sOf t.val) p) (feat (kOf t.val) e)) := by
  unfold iblk
  exact (read_x (adm m hO) t (V m c main_arg0) 0 p e).trans (congrFun (V_main_arg0 m c) _)

set_option maxHeartbeats 400000 in
/-- The dropout-uniform block at (0, p, e) is the uniform array at (b, 512 s + p, 512 k + e). -/
theorem blk_u (p e : Fin 512) :
    iblk m hO c 1 t (ix3 (0 : Fin 1) p e) = argU m c (ix3 (bOf t.val) (row (sOf t.val) p) (feat (kOf t.val) e)) := by
  unfold iblk
  exact (read_u (adm m hO) t (V m c main_arg5) 0 p e).trans (congrFun (V_main_arg5 m c) _)

set_option maxHeartbeats 400000 in
/-- The base-weight block at (e, q) is W at (2048 o + q, 512 k + e). -/
theorem blk_w (e : Fin 512) (q : Fin 2048) :
    iblk m hO c 2 t (ix2 e q) = argW m c (ix2 (col (oOf t.val) q) (feat (kOf t.val) e)) := by
  unfold iblk
  exact (read_w (adm m hO) t (V m c main_v2) e q).trans (V_v2_apply m c _ _)

set_option maxHeartbeats 400000 in
/-- The bias block at q is the bias at 2048 o + q. -/
theorem blk_bias (q : Fin 2048) : iblk m hO c 5 t (ix1 q) = argBias m c (ix1 (col (oOf t.val) q)) := by
  unfold iblk
  exact (read_bias (adm m hO) t (V m c main_arg2) q).trans (congrFun (V_main_arg2 m c) _)

set_option maxHeartbeats 400000 in
/-- Under non-negative ids the table's word at row b is the adapter index of row b. -/
theorem tbl_aid (hids : ∀ b : Fin 8, (argIds m 0 (ix1 b)).toNat < 2 ^ 31) (b : Fin 8) :
    BitVec.toNat ((adm m hO).1 0 (ix1 b)) = (aidOf (argIds m 0) b).val := by
  show BitVec.toNat (tbl m 0 (ix1 b)) = min (argIds m 0 (ix1 b)).toNat 3
  rw [tbl_clip m (ix1 b)]
  exact Cert.LoraWords.clip_of_nonneg _ (hids b)

set_option maxHeartbeats 400000 in
/-- The down-matrix block at (0, r, e) is A at (a_b, r, 512 k + e). -/
theorem blk_a (hids : ∀ b : Fin 8, (argIds m c (ix1 b)).toNat < 2 ^ 31) (r : Fin 16) (e : Fin 512) :
    iblk m hO c 3 t (ix3 (0 : Fin 1) r e) = argA m c (ix3 (aidOf (argIds m c) (bOf t.val)) r (feat (kOf t.val) e)) := by
  obtain rfl : c = 0 := Subsingleton.elim _ _
  have hn := tbl_aid m hO hids (bOf t.val)
  unfold iblk
  exact (read_a (adm m hO) t _ hn (V m 0 main_v4) 0 r e).trans (V_v4_apply m 0 _)

set_option maxHeartbeats 400000 in
/-- The up-matrix block at (0, q, r) is Bw at (a_b, 2048 o + q, r). -/
theorem blk_bw (hids : ∀ b : Fin 8, (argIds m c (ix1 b)).toNat < 2 ^ 31) (q : Fin 2048) (r : Fin 16) :
    iblk m hO c 4 t (ix3 (0 : Fin 1) q r) = argBw m c (ix3 (aidOf (argIds m c) (bOf t.val)) (col (oOf t.val) q) r) := by
  obtain rfl : c = 0 := Subsingleton.elim _ _
  have hn := tbl_aid m hO hids (bOf t.val)
  unfold iblk
  exact (read_bw (adm m hO) t _ hn (V m 0 main_v3) 0 q r).trans (V_v3_apply m 0 _)

end Blocks

end Cert.KernelIdeal.LoraBlocks

end
-- ==== Proof.Acc.lean ====
/-
  A blocked accumulation meets a running total.

  A total that starts at zero and gains one block sum per step holds, after step k, the sum over the first k+1 blocks.
-/
import proofs.«419449_j63342177681727_3_alg».proof.Proof.Spec

noncomputable section

namespace Cert.LoraSpec

variable {M : Type*} [AddCommMonoid M]

/-- The first step: zero plus block 0. -/
theorem acc_first (f : Fin 4096 → M) (k : Fin 8) (hk : k.val = 0) (S : M) (hS : S = blockSum f k) :
    0 + S = partialSum f (k.val + 1) := by
  rw [partial_succ, hk, partial_zero, hS]

/-- A later step: the total over the blocks before k, plus block k. -/
theorem acc_next (f : Fin 4096 → M) (k : Fin 8) (prev S : M) (hprev : prev = partialSum f k.val) (hS : S = blockSum f k) :
    prev + S = partialSum f (k.val + 1) := by
  rw [partial_succ, hprev, hS]

end Cert.LoraSpec

end
-- ==== Proof.KInv.lean ====
/-
  The kernel's two running totals, point by point.

  Grid point number n works on batch row b = n / 64, sequence tile s = n / 16 % 4, output tile o = n / 8 % 2 and
  reduction step k = n % 8.  After it, entry (p, q) of the base total holds the sum, over the first k + 1 blocks of 512
  input features, of x[b, 512 s + p, d] * W[2048 o + q, d]; entry (p, r) of the down-projection total holds the same
  partial sum of xd[b, 512 s + p, d] * A[a_b, r, d].  By induction on n: at k = 0 the totals are zero plus block 0, and
  at k > 0 the point before worked on the same (b, s, o) at step k - 1.
-/
import proofs.«419449_j63342177681727_3_alg».proof.Proof.KPiece
import proofs.«419449_j63342177681727_3_alg».proof.Proof.KPay
import proofs.«419449_j63342177681727_3_alg».proof.Proof.KBlocks
import proofs.«419449_j63342177681727_3_alg».proof.Proof.Acc

set_option maxRecDepth 16384

noncomputable section

open scoped BigOperators

namespace Cert.KernelIdeal.LoraInv

open Cert.KernelIdeal Cert.KernelIdeal.Gen Cert.KernelIdeal.GenP Idealize.ShloMosaic Idealize.ShloMosaic.TcCoe
  Idealize.ShloMosaic.ValueIdx Idealize.SL.Sem Cert.LoraSpec Cert.KernelIdeal.LoraBlocks Cert.KernelIdeal.LoraPay
  Cert.KernelIdeal.LoraPiece

variable (m : (ℓ : Loc nD τ sig) → Buf (Elt Ideal) ℓ)

/-- The base product's terms for entry (p, q) of point n's output block. -/
def baseF (c : Dev nD) (n : ℕ) (p : Fin 512) (q : Fin 2048) : Fin 4096 → EReal :=
  baseTerm (argX m c) (argW m c) (bOf n) (row (sOf n) p) (col (oOf n) q)

/-- The down-projection's terms for entry (p, r) of point n's rows. -/
def downF (c : Dev nD) (n : ℕ) (p : Fin 512) (r : Fin 16) : Fin 4096 → EReal :=
  downTerm (argX m c) (argA m c) (argU m c) (aidOf (argIds m c)) (bOf n) (row (sOf n) p) r

/-! ## The point before, when k > 0 -/

theorem bOf_prev (n : ℕ) (h : ¬(n + 1) % 8 = 0) : bOf n = bOf (n + 1) := Fin.ext (by unfold bOf; dsimp only; omega)
theorem sOf_prev (n : ℕ) (h : ¬(n + 1) % 8 = 0) : sOf n = sOf (n + 1) := Fin.ext (by unfold sOf; dsimp only; omega)
theorem oOf_prev (n : ℕ) (h : ¬(n + 1) % 8 = 0) : oOf n = oOf (n + 1) := Fin.ext (by unfold oOf; dsimp only; omega)
theorem kOf_prev (n : ℕ) (h : ¬(n + 1) % 8 = 0) : (kOf n).val + 1 = (kOf (n + 1)).val := by unfold kOf; dsimp only; omega

theorem baseF_prev (c : Dev nD) (n : ℕ) (h : ¬(n + 1) % 8 = 0) (p : Fin 512) (q : Fin 2048) :
    baseF m c n p q = baseF m c (n + 1) p q := by
  unfold baseF; rw [bOf_prev n h, sOf_prev n h, oOf_prev n h]

theorem downF_prev (c : Dev nD) (n : ℕ) (h : ¬(n + 1) % 8 = 0) (p : Fin 512) (r : Fin 16) :
    downF m c n p r = downF m c (n + 1) p r := by
  unfold downF; rw [bOf_prev n h, sOf_prev n h]

/-! ## One step's block sums -/

/-- Point t's input blocks, by literal type. -/
abbrev xb (hO : Ok m) (c : Dev nD) (t : Fin (cfgM m hO).N) : FVec Ideal S1x512x512 .f32 := iblk m hO c 0 t
abbrev ub (hO : Ok m) (c : Dev nD) (t : Fin (cfgM m hO).N) : FVec Ideal S1x512x512 .f32 := iblk m hO c 1 t
abbrev wb (hO : Ok m) (c : Dev nD) (t : Fin (cfgM m hO).N) : FVec Ideal S512x2048 .bf16 := iblk m hO c 2 t
abbrev ab (hO : Ok m) (c : Dev nD) (t : Fin (cfgM m hO).N) : FVec Ideal S1x16x512 .bf16 := iblk m hO c 3 t
abbrev bwb (hO : Ok m) (c : Dev nD) (t : Fin (cfgM m hO).N) : FVec Ideal S1x2048x16 .bf16 := iblk m hO c 4 t
abbrev biasb (hO : Ok m) (c : Dev nD) (t : Fin (cfgM m hO).N) : FVec Ideal S2048 .f32 := iblk m hO c 5 t

/-- The base product of point t's x block and W block is block k of the base terms. -/
theorem base_block (hO : Ok m) (c : Dev nD) (t : Fin (cfgM m hO).N) (p : Fin 512) (q : Fin 2048) :
    (∑ e : Fin 512, xb m hO c t (ix3 (0 : Fin 1) p e) * wb m hO c t (ix2 e q))
      = blockSum (baseF m c t.val p q) (kOf t.val) := by
  refine Finset.sum_congr rfl fun e _ => ?_
  exact congrArg₂ (fun x y : EReal => x * y) (blk_x m hO c t p e) (blk_w m hO c t e q)

/-- The down-projection term of point t's blocks is block k of the down-projection's terms. -/
theorem down_block (hO : Ok m) (c : Dev nD) (hids : ∀ b : Fin 8, (argIds m c (ix1 b)).toNat < 2 ^ 31)
    (t : Fin (cfgM m hO).N) (p : Fin 512) (r : Fin 16) :
    (∑ e : Fin 512, (xb m hO c t (ix3 (0 : Fin 1) p e) * keep (ub m hO c t (ix3 (0 : Fin 1) p e)) * two)
        * ab m hO c t (ix3 (0 : Fin 1) r e))
      = blockSum (downF m c t.val p r) (kOf t.val) := by
  refine Finset.sum_congr rfl fun e _ => ?_
  exact congrArg₂ (fun x y : EReal => x * y)
    (congrArg₂ (fun x u : EReal => x * keep u * two) (blk_x m hO c t p e) (blk_u m hO c t p e))
    (blk_a m hO c t hids r e)

/-! ## The invariant -/

/-- What the two totals hold after point n. -/
def Holds (hO : Ok m) (c : Dev nD) (n : ℕ) (hn : n < (cfgM m hO).N) : Prop :=
  (∀ (p : Fin 512) (q : Fin 2048),
      ((outsAt0 m hO c n hn).2.1 (ix2 p q) : EReal) = partialSum (baseF m c n p q) ((kOf n).val + 1))
  ∧ (∀ (p : Fin 512) (r : Fin 16),
      ((outsAt0 m hO c n hn).2.2 (ix2 p r) : EReal) = partialSum (downF m c n p r) ((kOf n).val + 1))

/-- A point with k = 0 starts the totals. -/
theorem holds_first (hO : Ok m) (c : Dev nD) (hids : ∀ b : Fin 8, (argIds m c (ix1 b)).toNat < 2 ^ 31)
    (t : Fin (cfgM m hO).N) (h0 : t.val % 8 = 0) : Holds m hO c t.val t.isLt := by
  have h1 : ¬t.val % 8 = 7 := by omega
  have hk : (kOf t.val).val = 0 := h0
  refine ⟨fun p q => ?_, fun p r => ?_⟩
  · refine (congrFun (stepA0 (F := Ideal) m hO c t h0 h1) (ix2 p q)).trans ?_
    refine (pay6_apply (xb m hO c t) (wb m hO c t) (k0_pay3 (F := Ideal)) p q).trans ?_
    rw [pay3_apply]
    exact acc_first _ (kOf t.val) hk _ (base_block m hO c t p q)
  · refine (congrFun (stepA1 (F := Ideal) m hO c t h0 h1) (ix2 p r)).trans ?_
    refine (pay1_apply (k0_pay7 (F := Ideal) (xb m hO c t) (ub m hO c t) (ab m hO c t)) (k0_pay4 (F := Ideal)) (ix2 p r)).trans ?_
    rw [pay4_apply, pay7_apply (xb m hO c t) (ub m hO c t) (ab m hO c t) p r]
    exact acc_first _ (kOf t.val) hk _ (down_block m hO c hids t p r)

/-- A point with k > 0 continues the totals of the point before. -/
theorem holds_next (hO : Ok m) (c : Dev nD) (hids : ∀ b : Fin 8, (argIds m c (ix1 b)).toNat < 2 ^ 31)
    (n : ℕ) (hn : n + 1 < (cfgM m hO).N) (h0 : ¬(n + 1) % 8 = 0)
    (ih : Holds m hO c n (Nat.lt_of_succ_lt hn)) : Holds m hO c (n + 1) hn := by
  have e0 : (outsAt0 m hO c (n + 1) hn).2.1
      = k0_pay6 (F := Ideal) (xb m hO c ⟨n + 1, hn⟩) (wb m hO c ⟨n + 1, hn⟩) (outsAt0 m hO c n (Nat.lt_of_succ_lt hn)).2.1 := by
    by_cases h1 : (n + 1) % 8 = 7
    · exact stepC0 (F := Ideal) m hO c ⟨n + 1, hn⟩ h0 h1
    · exact stepB0 (F := Ideal) m hO c ⟨n + 1, hn⟩ h0 h1
  have e1 : (outsAt0 m hO c (n + 1) hn).2.2
      = k0_pay1 (F := Ideal) (k0_pay7 (xb m hO c ⟨n + 1, hn⟩) (ub m hO c ⟨n + 1, hn⟩) (ab m hO c ⟨n + 1, hn⟩)) (outsAt0 m hO c n (Nat.lt_of_succ_lt hn)).2.2 := by
    by_cases h1 : (n + 1) % 8 = 7
    · exact stepC1 (F := Ideal) m hO c ⟨n + 1, hn⟩ h0 h1
    · exact stepB1 (F := Ideal) m hO c ⟨n + 1, hn⟩ h0 h1
  refine ⟨fun p q => ?_, fun p r => ?_⟩
  · refine (congrFun e0 (ix2 p q)).trans ?_
    refine (pay6_apply (xb m hO c ⟨n + 1, hn⟩) (wb m hO c ⟨n + 1, hn⟩) (outsAt0 m hO c n (Nat.lt_of_succ_lt hn)).2.1 p q).trans ?_
    refine acc_next _ (kOf (n + 1)) _ _ ?_ (base_block m hO c ⟨n + 1, hn⟩ p q)
    refine (ih.1 p q).trans ?_
    rw [baseF_prev m c n h0 p q, kOf_prev n h0]
  · refine (congrFun e1 (ix2 p r)).trans ?_
    refine (pay1_apply (k0_pay7 (F := Ideal) (xb m hO c ⟨n + 1, hn⟩) (ub m hO c ⟨n + 1, hn⟩) (ab m hO c ⟨n + 1, hn⟩)) (outsAt0 m hO c n (Nat.lt_of_succ_lt hn)).2.2 (ix2 p r)).trans ?_
    rw [pay7_apply (xb m hO c ⟨n + 1, hn⟩) (ub m hO c ⟨n + 1, hn⟩) (ab m hO c ⟨n + 1, hn⟩) p r]
    refine acc_next _ (kOf (n + 1)) _ _ ?_ (down_block m hO c hids ⟨n + 1, hn⟩ p r)
    refine (ih.2 p r).trans ?_
    rw [downF_prev m c n h0 p r, kOf_prev n h0]

/-- The invariant holds after every point. -/
theorem holds (hO : Ok m) (c : Dev nD) (hids : ∀ b : Fin 8, (argIds m c (ix1 b)).toNat < 2 ^ 31) :
    ∀ (n : ℕ) (hn : n < (cfgM m hO).N), Holds m hO c n hn
  | 0, hn => holds_first m hO c hids ⟨0, hn⟩ rfl
  | n + 1, hn => by
    by_cases h0 : (n + 1) % 8 = 0
    · exact holds_first m hO c hids ⟨n + 1, hn⟩ h0
    · exact holds_next m hO c hids n hn h0 (holds hO c hids n (Nat.lt_of_succ_lt hn))

end Cert.KernelIdeal.LoraInv

end
-- ==== Proof.KFinal.lean ====
/-
  From the output blocks to the result array.

  The pipeline writes the output's block back at the points with reduction step k = 7.  The block written at such a
  point is, entry by entry, the layer's value at (b, 512 s + p, 2048 o + q): the base total has by then met all eight
  blocks of input features, so it is the whole base sum, and likewise the down-projection total, which the up-projection
  then contracts over the rank.  Every index (b', s', o') of the result lies in exactly the block of the point
  (b', s' / 512, o' / 2048, 7), so the flushed blocks cover the array and it ends holding the layer's value everywhere.
-/
import proofs.«419449_j63342177681727_3_alg».proof.Proof.KInv

set_option maxRecDepth 16384

noncomputable section

open scoped BigOperators

namespace Cert.KernelIdeal.LoraFinal

open Cert.KernelIdeal Cert.KernelIdeal.Gen Cert.KernelIdeal.GenP Idealize.ShloMosaic Idealize.ShloMosaic.TcCoe
  Idealize.ShloMosaic.ValueIdx Idealize.SL.Sem Cert.LoraSpec Cert.KernelIdeal.LoraBlocks Cert.KernelIdeal.LoraPay
  Cert.KernelIdeal.LoraPiece Cert.KernelIdeal.LoraInv
open Idealize.ShloMosaic.Pipeline (Dat)

variable (m : (ℓ : Loc nD τ sig) → Buf (Elt Ideal) ℓ) (ρ : Dev nD → PrngReg)

/-- The layer's value on the launch memory's arrays: what the result array ends holding. -/
abbrev G (c : Dev nD) : S8x2048x4096.Idx → EReal :=
  result (argX m c) (argW m c) (argBias m c) (argA m c) (argBw m c) (argU m c) (aidOf (argIds m c))

/-! ## The output window's blocks -/

/-- The output's index map over the grid: block (b, s, o) at point number t. -/
theorem idx6 : ∀ t : Fin grid0.N, cc0_transform_6 (grid0.coords t) (0 : Fin 3) = t.val / 64
    ∧ cc0_transform_6 (grid0.coords t) (1 : Fin 3) = t.val / 16 % 4
    ∧ cc0_transform_6 (grid0.coords t) (2 : Fin 3) = t.val / 8 % 2 :=
  (by decide +kernel : ∀ t : Fin grid0.N, _)

/-- The output window's block index at a point is the printed map, whatever the table holds. -/
theorem win6_index (a : (pcfg0 (F := Ideal)).Adm) (t : Fin (cfg0 a).N) :
    ((cfg0 a).win 6).index t = cc0_transform_6 (grid0.coords t) := rfl

/-- Entry (u, p, q) of point t's output block is the result's entry (b, 512 s + p, 2048 o + q). -/
theorem emb6 (a : (pcfg0 (F := Ideal)).Adm) (t : Fin (cfg0 a).N) (u : Fin 1) (p : Fin 512) (q : Fin 2048) :
    ((((cfg0 a).win 6).blk t).view.emb (ix3 u p q) : S8x2048x4096.Idx)
      = ix3 (bOf t.val) (row (sOf t.val) p) (col (oOf t.val) q) := by
  have hN : t.val < 512 := lt_of_lt_of_eq t.isLt (show (cfg0 a).N = 512 from N_0)
  obtain ⟨e0, e1, e2⟩ := idx6 t
  have hu : u.val = 0 := by omega
  funext ax
  apply Fin.ext
  match ax with
  | ⟨0, _⟩ =>
    show cc0_transform_6 (grid0.coords t) (0 : Fin 3) * 1 + 1 * u.val = t.val / 64 % 8
    rw [e0]; omega
  | ⟨1, _⟩ =>
    show cc0_transform_6 (grid0.coords t) (1 : Fin 3) * 512 + 1 * p.val = 512 * (t.val / 16 % 4) + p.val
    rw [e1]; omega
  | ⟨2, _⟩ =>
    show cc0_transform_6 (grid0.coords t) (2 : Fin 3) * 2048 + 1 * q.val = 2048 * (t.val / 8 % 2) + q.val
    rw [e2]; omega

set_option backward.isDefEq.respectTransparency.types false in
/-- An index of the result is in point t's block iff each coordinate is in the block's range on its axis. -/
theorem mem_blk6 (a : (pcfg0 (F := Ideal)).Adm) (t : Fin (cfg0 a).N) (i : S8x2048x4096.Idx) :
    i ∈ (((cfg0 a).win 6).blk t).view.set ↔ ∀ ax : Fin 3, cc0_transform_6 (grid0.coords t) ax * S1x512x2048.size ax ≤ (i ax).val ∧ (i ax).val < cc0_transform_6 (grid0.coords t) ax * S1x512x2048.size ax + S1x512x2048.size ax := by
  show i ∈ ((View.whole main_v5).slice (((cfg0 a).win 6).rect t)).set ↔ _
  rw [View.set_slice_whole]
  exact Rect.mem_set_unit

/-! ## What a flushing point writes back -/

/-- The output block of a point with k = 7, entry by entry. -/
theorem block_value (hO : Ok m) (c : Dev nD) (hids : ∀ b : Fin 8, (argIds m c (ix1 b)).toNat < 2 ^ 31)
    (t : Fin (cfgM m hO).N) (h7 : t.val % 8 = 7) (u : Fin 1) (p : Fin 512) (q : Fin 2048) :
    ((outsAt0 m hO c t.val t.isLt).1 (ix3 u p q) : EReal)
      = G m c (ix3 (bOf t.val) (row (sOf t.val) p) (col (oOf t.val) q)) := by
  have h0 : ¬t.val % 8 = 0 := by omega
  have hk : (kOf t.val).val + 1 = 8 := by unfold kOf; dsimp only; omega
  obtain ⟨hbase, hdown⟩ := holds m hO c hids t.val t.isLt
  -- the output block is computed from the two totals as this point leaves them
  have e6 : (outsAt0 m hO c t.val t.isLt).1
      = k0_pay2 (F := Ideal) (bwb m hO c t) (outsAt0 m hO c t.val t.isLt).2.2 (outsAt0 m hO c t.val t.isLt).2.1 (biasb m hO c t) := by
    rw [stepC0 (F := Ideal) m hO c t h0 h7, stepC1 (F := Ideal) m hO c t h0 h7]
    exact stepC6 (F := Ideal) m hO c t h0 h7
  refine (congrFun e6 (ix3 u p q)).trans ?_
  refine (pay2_apply (bwb m hO c t) (outsAt0 m hO c t.val t.isLt).2.2 (outsAt0 m hO c t.val t.isLt).2.1 (biasb m hO c t) u p q).trans ?_
  show _ = Cert.LoraSpec.out (argX m c) (argW m c) (argBias m c) (argA m c) (argBw m c) (argU m c) (aidOf (argIds m c)) (bOf t.val) (row (sOf t.val) p) (col (oOf t.val) q)
  unfold Cert.LoraSpec.out
  refine congrArg₂ (fun x y : EReal => x + y) (congrArg₂ (fun x y : EReal => x + y) ?_ (blk_bias m hO c t q)) (Finset.sum_congr rfl fun r _ => congrArg₂ (fun x y : EReal => x * y) ?_ (blk_bw m hO c t hids q r))
  · refine (hbase p q).trans ?_
    rw [hk]
    exact partial_all _
  · refine (hdown p r).trans ?_
    rw [hk]
    exact partial_all _

/-- WHAT A FLUSHING POINT WRITES BACK is its block of the layer's value. -/
theorem flushed_eq (hO : Ok m) (c : Dev nD) (hids : ∀ b : Fin 8, (argIds m c (ix1 b)).toNat < 2 ^ 31)
    (t : Fin (cfgM m hO).N) (hf : ((cfgM m hO).win 6).flush t = true) :
    (dats m hO 0 c).flushed 6 t = (((cfgM m hO).win 6).blk t).view.read (Elt Ideal) (G m c) := by
  have h7 : t.val % 8 = 7 := (flush0_6 (adm m hO) t).mp hf
  show ((cfgM m hO).win 6).cut (grid0.coords t) ((dats m hO 0 c).after 6 t) = _
  rw [after0_6]
  have key : ∀ j' : S1x512x2048.Idx,
      ((outsAt0 m hO c t.val t.isLt).1 j' : EReal) = G m c ((((cfgM m hO).win 6).blk t).view.emb j') := fun j' =>
    (congrArg (outsAt0 m hO c t.val t.isLt).1 (eq_ix3 j')).trans
      ((block_value m hO c hids t h7 (j' 0) (j' 1) (j' 2)).trans
        (congrArg (G m c)
          ((congrArg (((cfgM m hO).win 6).blk t).view.emb (eq_ix3 j')).trans (emb6 (adm m hO) t (j' 0) (j' 1) (j' 2))).symm))
  funext j
  show (outsAt0 m hO c t.val t.isLt).1 j = G m c ((((cfgM m hO).win 6).blk t).view.emb j)
  exact key j

/-! ## The cover -/

/-- Every index of the result is in the block of a flushing point. -/
theorem cover (hO : Ok m) (c : Dev nD) (i : S8x2048x4096.Idx) :
    ∃ t : Fin (cfgM m hO).N, ((cfgM m hO).win 6).flush t = true ∧ i ∈ (((cfgM m hO).win 6).blk t).view.set := by
  have h0 : (i 0).val < 8 := (i 0).isLt
  have h1 : (i 1).val < 2048 := (i 1).isLt
  have h2 : (i 2).val < 4096 := (i 2).isLt
  have hN : (cfgM m hO).N = 512 := N_0
  obtain ⟨n, hdef⟩ : ∃ n : ℕ, n = 64 * (i 0).val + 16 * ((i 1).val / 512) + 8 * ((i 2).val / 2048) + 7 := ⟨_, rfl⟩
  have hn : n < (cfgM m hO).N := by rw [hN]; omega
  refine ⟨⟨n, hn⟩, (flush0_6 (adm m hO) ⟨n, hn⟩).mpr (by show n % 8 = 7; omega), ?_⟩
  rw [mem_blk6 (adm m hO) ⟨n, hn⟩ i]
  obtain ⟨e0, e1, e2⟩ := idx6 ⟨n, hn⟩
  have e0' : cc0_transform_6 (grid0.coords ⟨n, hn⟩) (0 : Fin 3) = n / 64 := e0
  have e1' : cc0_transform_6 (grid0.coords ⟨n, hn⟩) (1 : Fin 3) = n / 16 % 4 := e1
  have e2' : cc0_transform_6 (grid0.coords ⟨n, hn⟩) (2 : Fin 3) = n / 8 % 2 := e2
  intro ax
  match ax with
  | ⟨0, _⟩ =>
    show cc0_transform_6 (grid0.coords ⟨n, hn⟩) (0 : Fin 3) * 1 ≤ (i 0).val ∧ (i 0).val < cc0_transform_6 (grid0.coords ⟨n, hn⟩) (0 : Fin 3) * 1 + 1
    rw [e0']; omega
  | ⟨1, _⟩ =>
    show cc0_transform_6 (grid0.coords ⟨n, hn⟩) (1 : Fin 3) * 512 ≤ (i 1).val ∧ (i 1).val < cc0_transform_6 (grid0.coords ⟨n, hn⟩) (1 : Fin 3) * 512 + 512
    rw [e1']; omega
  | ⟨2, _⟩ =>
    show cc0_transform_6 (grid0.coords ⟨n, hn⟩) (2 : Fin 3) * 2048 ≤ (i 2).val ∧ (i 2).val < cc0_transform_6 (grid0.coords ⟨n, hn⟩) (2 : Fin 3) * 2048 + 2048
    rw [e2']; omega

/-! ## The result array, and the run -/

/-- The result array ends holding the layer's value. -/
theorem final (hO : Ok m) (c : Dev nD) (hids : ∀ b : Fin 8, (argIds m c (ix1 b)).toNat < 2 ^ 31) :
    (dats m hO 0 c).arrAt 6 (cfgM m hO).N = G m c :=
  (dats m hO 0 c).arrAt_eq_of_cover 6 (G m c) (fun t hf => flushed_eq m hO c hids t hf) (cover m hO c)

/-- The run, read: the result array at the layer's value, every argument array unchanged. -/
theorem run (hO : Ok m) (hids : ∀ (c : Dev nD) (b : Fin 8), (argIds m c (ix1 b)).toNat < 2 ^ 31) :
    θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (final m hO c (hids c)),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 5).trans (((dats m hO 0 c).arrAt_in 5 rfl _).trans ((A_eq m hO c 5).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 1).trans (((dats m hO 0 c).arrAt_in 1 rfl _).trans ((A_eq m hO c 1).trans (V_main_arg5 m c))),
      ((h c).2 main_arg6 (by decide : main_arg6 ∈ Pipeline.restRefs sig spec0)).trans (V_main_arg6 m c)⟩)
    (run_main m ρ hO)

end Cert.KernelIdeal.LoraFinal

end
-- ==== Proof.lean ====
/-
  The LoRA linear layer, kernel against reference, over the extended reals.

  Both programs compute, for batch row b, position s and output feature o,

    out[b,s,o] = (sum_d x[b,s,d] * W[o,d] + bias[o]) + sum_r (sum_d xd[b,s,d] * A[a_b,r,d]) * Bw[a_b,o,r],
    xd[b,s,d]  = x[b,s,d] * keep(u[b,s,d]) * 2,

  with keep(u) the reciprocal of the keep probability where u is at least the dropout threshold and 0 elsewhere, and a_b
  the row's adapter index capped at the last adapter (Proof/Spec.lean).  The kernel meets the 4096 input features in
  eight blocks of 512 and keeps two running totals across the blocks (Proof/KInv.lean); a sum over a commutative monoid
  does not depend on the blocking, so after the eighth block the totals are the reference's sums, and the block the
  kernel then writes is the layer's value (Proof/KFinal.lean).  The reference divides the dropout mask by the f32 word
  of 19/20 where the kernel multiplies by the reciprocal folded to one f32 word; the kernel's word is named, by the
  certificate's table, the exact reciprocal of the reference's word, and with that the two factors are one extended
  real (Spec.lean: keep_of_mask_div, keep_of_mask_mul).  The kernel clips the adapter id into [0, 3] where the
  reference first adds 4 to a negative id and then clamps: the two agree on ids that are non-negative, which is what
  the precondition's last conjunct says (Proof/PreIds.lean, Proof/Words.lean).  The kernel's index maps read the
  clipped ids, so every block they name lies inside its array whatever the launch memory holds
  (Proof/TableK.lean, Proof/TableKI.lean).
-/
import proofs.«419449_j63342177681727_3_alg».proof.Defs
import proofs.«419449_j63342177681727_3_alg».proof.Proof.Gen.Kernel
import proofs.«419449_j63342177681727_3_alg».proof.Proof.Gen.KernelIdeal
import proofs.«419449_j63342177681727_3_alg».proof.Proof.Gen.ReferenceIdeal
import proofs.«419449_j63342177681727_3_alg».proof.Proof.Gen.Pre_finite_inputs
import proofs.«419449_j63342177681727_3_alg».proof.Proof.Gen.ReferenceIdeal.Run
import proofs.«419449_j63342177681727_3_alg».proof.Proof.Gen.ReferenceIdeal.Read
import proofs.«419449_j63342177681727_3_alg».proof.Proof.FrameK
import proofs.«419449_j63342177681727_3_alg».proof.Proof.FrameKI
import proofs.«419449_j63342177681727_3_alg».proof.Proof.TableK
import proofs.«419449_j63342177681727_3_alg».proof.Proof.TableKI
import proofs.«419449_j63342177681727_3_alg».proof.Proof.PreIds
import proofs.«419449_j63342177681727_3_alg».proof.Proof.RefValue
import proofs.«419449_j63342177681727_3_alg».proof.Proof.KFinal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

namespace LoraClaims

/-- The kernel as printed runs and leaves its arguments unchanged: its table of clipped ids is always admissible. -/
theorem frame_k : Cert.frame_Kernel (hKernel := Cert.Kernel.Gen.facts) (hPre_finite_inputs := Cert.Pre_finite_inputs.Gen.facts) :=
  fun m ρ _ => Cert.Kernel.GenP.frame m ρ (Cert.Kernel.LoraTable.ok m)

/-- The same for the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ (Cert.KernelIdeal.LoraTable.ok m)

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the folded reciprocal's word denotes the exact reciprocal of the reference's
    keep-probability word. -/
theorem preserves : Cert.preserves_Kernel_KernelIdeal :=
  IdealRules.named_const.statement Cert.KernelIdeal.κ "inv_keep_prob" .f32 0x3F86BCA2#32 ((16777216 / 15938355 : ℝ) : EReal) rfl

/-- Both programs end with the layer's value on arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hids : ∀ (c : Dev Cert.KernelIdeal.nD) (b : Fin 8),
      (Cert.KernelIdeal.LoraBlocks.argIds m c (ix1 b)).toNat < 2 ^ 31 := fun c b =>
    Cert.LoraPre.ids_nonneg (F := Ideal) _ _ _ _ _ _ _ (hpre c) b
  refine ⟨fun c => Cert.KernelIdeal.LoraFinal.G m c, Cert.KernelIdeal.LoraFinal.run m ρ (Cert.KernelIdeal.LoraTable.ok m) hids, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq (F := Ideal) _ _ _ _ _ _ _).trans ?_
  rw [(hagree c).1, (hagree c).2.1, (hagree c).2.2.1, (hagree c).2.2.2.1, (hagree c).2.2.2.2.1, (hagree c).2.2.2.2.2.1,
    (hagree c).2.2.2.2.2.2]
  exact Cert.ReferenceIdeal.LoraRef.ref_is_spec _ _ _ _ _ _ _ (hids c)

end LoraClaims

theorem claim : Cert.Claim := ⟨Cert.Kernel.Gen.facts, Cert.KernelIdeal.Gen.facts, Cert.ReferenceIdeal.Gen.facts, Cert.Pre_finite_inputs.Gen.facts,
  LoraClaims.frame_k, LoraClaims.frame_ki, LoraClaims.frame_ri, LoraClaims.preserves, LoraClaims.algebraic⟩

end Cert.Proof

end
